-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x272 : Shape := ⟨2, ![65536, 272]⟩
abbrev S65536x420 : Shape := ⟨2, ![65536, 420]⟩
abbrev S65536x4 : Shape := ⟨2, ![65536, 4]⟩
abbrev S600x20 : Shape := ⟨2, ![600, 20]⟩
abbrev S600x200 : Shape := ⟨2, ![600, 200]⟩
abbrev S600 : Shape := ⟨1, ![600]⟩
abbrev S384x320 : Shape := ⟨2, ![384, 320]⟩
abbrev S384x128 : Shape := ⟨2, ![384, 128]⟩
abbrev S384 : Shape := ⟨1, ![384]⟩
abbrev S8x128 : Shape := ⟨2, ![8, 128]⟩
abbrev S8 : Shape := ⟨1, ![8]⟩
abbrev S64x200 : Shape := ⟨2, ![64, 200]⟩
abbrev S_ : Shape := ⟨0, ![]⟩

class Facts : Prop where
  bcast_S_S65536x272 : S_.BroadcastsInDim S65536x272 (![] : Fin 0 → Fin S65536x272.rank)
  reducesTo_S65536x272_S_d0_1 : S65536x272.ReducesTo [0, 1] S_
  h_S_ : 0 < S_.numel
  bcast_S_S65536x420 : S_.BroadcastsInDim S65536x420 (![] : Fin 0 → Fin S65536x420.rank)
  reducesTo_S65536x420_S_d0_1 : S65536x420.ReducesTo [0, 1] S_
  bcast_S_S65536x4 : S_.BroadcastsInDim S65536x4 (![] : Fin 0 → Fin S65536x4.rank)
  reducesTo_S65536x4_S_d0_1 : S65536x4.ReducesTo [0, 1] S_
  bcast_S_S600x20 : S_.BroadcastsInDim S600x20 (![] : Fin 0 → Fin S600x20.rank)
  reducesTo_S600x20_S_d0_1 : S600x20.ReducesTo [0, 1] S_
  bcast_S_S600x200 : S_.BroadcastsInDim S600x200 (![] : Fin 0 → Fin S600x200.rank)
  reducesTo_S600x200_S_d0_1 : S600x200.ReducesTo [0, 1] S_
  bcast_S_S600 : S_.BroadcastsInDim S600 (![] : Fin 0 → Fin S600.rank)
  reducesTo_S600_S_d0 : S600.ReducesTo [0] S_
  bcast_S_S384x320 : S_.BroadcastsInDim S384x320 (![] : Fin 0 → Fin S384x320.rank)
  reducesTo_S384x320_S_d0_1 : S384x320.ReducesTo [0, 1] S_
  bcast_S_S384x128 : S_.BroadcastsInDim S384x128 (![] : Fin 0 → Fin S384x128.rank)
  reducesTo_S384x128_S_d0_1 : S384x128.ReducesTo [0, 1] S_
  bcast_S_S384 : S_.BroadcastsInDim S384 (![] : Fin 0 → Fin S384.rank)
  reducesTo_S384_S_d0 : S384.ReducesTo [0] S_
  bcast_S_S8x128 : S_.BroadcastsInDim S8x128 (![] : Fin 0 → Fin S8x128.rank)
  reducesTo_S8x128_S_d0_1 : S8x128.ReducesTo [0, 1] S_
  bcast_S_S8 : S_.BroadcastsInDim S8 (![] : Fin 0 → Fin S8.rank)
  reducesTo_S8_S_d0 : S8.ReducesTo [0] S_
  bcast_S_S64x200 : S_.BroadcastsInDim S64x200 (![] : Fin 0 → Fin S64x200.rank)
  reducesTo_S64x200_S_d0_1 : S64x200.ReducesTo [0, 1] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S8x128 .f32) (main_arg12 : FVec F S8 .f32) (main_arg13 : FVec F S64x200 .f32) (main_v48 : IVec S_ 1) (main_v49 : FVec F S384 .f32) (main_v50 : FVec F S384 .f32) : IVec S_ 1 :=
  let main_v51 : IVec S384 1 := cmpf .olt main_v49 main_v50
  let main_c_19 : IVec S_ 1 := constantI S_ 1 1#1
  let main_v52 : IVec S_ 1 := (fun x v => Host.reduce IntOp.andi x v reducesTo_S384_S_d0 h_S_) main_v51 main_c_19
  let main_v53 : IVec S_ 1 := andi main_v48 main_v52
  let main_v54 : FVec F S8x128 .f32 := Host.absf main_arg11
  let main_cst_20 : FVec F S_ .f32 := constant S_ .f32 0x7F800000#32
  let main_v55 : FVec F S8x128 .f32 := broadcastInDim S8x128 ![] bcast_S_S8x128 main_cst_20
  let main_v56 : IVec S8x128 1 := cmpf .olt main_v54 main_v55
  let main_c_21 : IVec S_ 1 := constantI S_ 1 1#1
  let main_v57 : IVec S_ 1 := (fun x v => Host.reduce IntOp.andi x v reducesTo_S8x128_S_d0_1 h_S_) main_v56 main_c_21
  let main_v58 : IVec S_ 1 := andi main_v53 main_v57
  let main_v59 : FVec F S8 .f32 := Host.absf main_arg12
  let main_cst_22 : FVec F S_ .f32 := constant S_ .f32 0x7F800000#32
  let main_v60 : FVec F S8 .f32 := broadcastInDim S8 ![] bcast_S_S8 main_cst_22
  let main_v61 : IVec S8 1 := cmpf .olt main_v59 main_v60
  let main_c_23 : IVec S_ 1 := constantI S_ 1 1#1
  let main_v62 : IVec S_ 1 := (fun x v => Host.reduce IntOp.andi x v reducesTo_S8_S_d0 h_S_) main_v61 main_c_23
  let main_v63 : IVec S_ 1 := andi main_v58 main_v62
  let main_v64 : FVec F S64x200 .f32 := Host.absf main_arg13
  let main_cst_24 : FVec F S_ .f32 := constant S_ .f32 0x7F800000#32
  let main_v65 : FVec F S64x200 .f32 := broadcastInDim S64x200 ![] bcast_S_S64x200 main_cst_24
  let main_v66 : IVec S64x200 1 := cmpf .olt main_v64 main_v65
  let main_c_25 : IVec S_ 1 := constantI S_ 1 1#1
  let main_v67 : IVec S_ 1 := (fun x v => Host.reduce IntOp.andi x v reducesTo_S64x200_S_d0_1 h_S_) main_v66 main_c_25
  fn_part4 (F := F) main_v63 main_v67

def fn_part2 {F : FTy → Type} [FloatOps F] (main_arg7 : FVec F S384x320 .f32) (main_arg8 : FVec F S384x128 .f32) (main_arg9 : FVec F S384 .f32) (main_arg10 : FVec F S384 .f32) (main_arg11 : FVec F S8x128 .f32) (main_arg12 : FVec F S8 .f32) (main_arg13 : FVec F S64x200 .f32) (main_v33 : IVec S_ 1) : IVec S_ 1 :=
  let main_v34 : FVec F S384x320 .f32 := Host.absf main_arg7
  let main_cst_12 : FVec F S_ .f32 := constant S_ .f32 0x7F800000#32
  let main_v35 : FVec F S384x320 .f32 := broadcastInDim S384x320 ![] bcast_S_S384x320 main_cst_12
  let main_v36 : IVec S384x320 1 := cmpf .olt main_v34 main_v35
  let main_c_13 : IVec S_ 1 := constantI S_ 1 1#1
  let main_v37 : IVec S_ 1 := (fun x v => Host.reduce IntOp.andi x v reducesTo_S384x320_S_d0_1 h_S_) main_v36 main_c_13
  let main_v38 : IVec S_ 1 := andi main_v33 main_v37
  let main_v39 : FVec F S384x128 .f32 := Host.absf main_arg8
  let main_cst_14 : FVec F S_ .f32 := constant S_ .f32 0x7F800000#32
  let main_v40 : FVec F S384x128 .f32 := broadcastInDim S384x128 ![] bcast_S_S384x128 main_cst_14
  let main_v41 : IVec S384x128 1 := cmpf .olt main_v39 main_v40
  let main_c_15 : IVec S_ 1 := constantI S_ 1 1#1
  let main_v42 : IVec S_ 1 := (fun x v => Host.reduce IntOp.andi x v reducesTo_S384x128_S_d0_1 h_S_) main_v41 main_c_15
  let main_v43 : IVec S_ 1 := andi main_v38 main_v42
  let main_v44 : FVec F S384 .f32 := Host.absf main_arg9
  let main_cst_16 : FVec F S_ .f32 := constant S_ .f32 0x7F800000#32
  let main_v45 : FVec F S384 .f32 := broadcastInDim S384 ![] bcast_S_S384 main_cst_16
  let main_v46 : IVec S384 1 := cmpf .olt main_v44 main_v45
  let main_c_17 : IVec S_ 1 := constantI S_ 1 1#1
  let main_v47 : IVec S_ 1 := (fun x v => Host.reduce IntOp.andi x v reducesTo_S384_S_d0 h_S_) main_v46 main_c_17
  let main_v48 : IVec S_ 1 := andi main_v43 main_v47
  let main_v49 : FVec F S384 .f32 := Host.absf main_arg10
  let main_cst_18 : FVec F S_ .f32 := constant S_ .f32 0x7F800000#32
  let main_v50 : FVec F S384 .f32 := broadcastInDim S384 ![] bcast_S_S384 main_cst_18
  fn_part3 (F := F) main_arg11 main_arg12 main_arg13 main_v48 main_v49 main_v50

def fn_part1 {F : FTy → Type} [FloatOps F] (main_arg4 : FVec F S600x200 .f32) (main_arg5 : FVec F S600 .f32) (main_arg6 : FVec F S600 .f32) (main_arg7 : FVec F S384x320 .f32) (main_arg8 : FVec F S384x128 .f32) (main_arg9 : FVec F S384 .f32) (main_arg10 : FVec F S384 .f32) (main_arg11 : FVec F S8x128 .f32) (main_arg12 : FVec F S8 .f32) (main_arg13 : FVec F S64x200 .f32) (main_v13 : IVec S_ 1) (main_v16 : IVec S600x20 1) : IVec S_ 1 :=
  let main_c_5 : IVec S_ 1 := constantI S_ 1 1#1
  let main_v17 : IVec S_ 1 := (fun x v => Host.reduce IntOp.andi x v reducesTo_S600x20_S_d0_1 h_S_) main_v16 main_c_5
  let main_v18 : IVec S_ 1 := andi main_v13 main_v17
  let main_v19 : FVec F S600x200 .f32 := Host.absf main_arg4
  let main_cst_6 : FVec F S_ .f32 := constant S_ .f32 0x7F800000#32
  let main_v20 : FVec F S600x200 .f32 := broadcastInDim S600x200 ![] bcast_S_S600x200 main_cst_6
  let main_v21 : IVec S600x200 1 := cmpf .olt main_v19 main_v20
  let main_c_7 : IVec S_ 1 := constantI S_ 1 1#1
  let main_v22 : IVec S_ 1 := (fun x v => Host.reduce IntOp.andi x v reducesTo_S600x200_S_d0_1 h_S_) main_v21 main_c_7
  let main_v23 : IVec S_ 1 := andi main_v18 main_v22
  let main_v24 : FVec F S600 .f32 := Host.absf main_arg5
  let main_cst_8 : FVec F S_ .f32 := constant S_ .f32 0x7F800000#32
  let main_v25 : FVec F S600 .f32 := broadcastInDim S600 ![] bcast_S_S600 main_cst_8
  let main_v26 : IVec S600 1 := cmpf .olt main_v24 main_v25
  let main_c_9 : IVec S_ 1 := constantI S_ 1 1#1
  let main_v27 : IVec S_ 1 := (fun x v => Host.reduce IntOp.andi x v reducesTo_S600_S_d0 h_S_) main_v26 main_c_9
  let main_v28 : IVec S_ 1 := andi main_v23 main_v27
  let main_v29 : FVec F S600 .f32 := Host.absf main_arg6
  let main_cst_10 : FVec F S_ .f32 := constant S_ .f32 0x7F800000#32
  let main_v30 : FVec F S600 .f32 := broadcastInDim S600 ![] bcast_S_S600 main_cst_10
  let main_v31 : IVec S600 1 := cmpf .olt main_v29 main_v30
  let main_c_11 : IVec S_ 1 := constantI S_ 1 1#1
  let main_v32 : IVec S_ 1 := (fun x v => Host.reduce IntOp.andi x v reducesTo_S600_S_d0 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S65536x272 .f32) (main_arg1 : FVec F S65536x420 .f32) (main_arg2 : FVec F S65536x4 .f32) (main_arg3 : FVec F S600x20 .f32) (main_arg4 : FVec F S600x200 .f32) (main_arg5 : FVec F S600 .f32) (main_arg6 : FVec F S600 .f32) (main_arg7 : FVec F S384x320 .f32) (main_arg8 : FVec F S384x128 .f32) (main_arg9 : FVec F S384 .f32) (main_arg10 : FVec F S384 .f32) (main_arg11 : FVec F S8x128 .f32) (main_arg12 : FVec F S8 .f32) (main_arg13 : FVec F S64x200 .f32) : IVec S_ 1 :=
  let main_v0 : FVec F S65536x272 .f32 := Host.absf main_arg0
  let main_cst : FVec F S_ .f32 := constant S_ .f32 0x7F800000#32
  let main_v1 : FVec F S65536x272 .f32 := broadcastInDim S65536x272 ![] bcast_S_S65536x272 main_cst
  let main_v2 : IVec S65536x272 1 := cmpf .olt main_v0 main_v1
  let main_c : IVec S_ 1 := constantI S_ 1 1#1
  let main_v3 : IVec S_ 1 := (fun x v => Host.reduce IntOp.andi x v reducesTo_S65536x272_S_d0_1 h_S_) main_v2 main_c
  let main_v4 : FVec F S65536x420 .f32 := Host.absf main_arg1
  let main_cst_0 : FVec F S_ .f32 := constant S_ .f32 0x7F800000#32
  let main_v5 : FVec F S65536x420 .f32 := broadcastInDim S65536x420 ![] bcast_S_S65536x420 main_cst_0
  let main_v6 : IVec S65536x420 1 := cmpf .olt main_v4 main_v5
  let main_c_1 : IVec S_ 1 := constantI S_ 1 1#1
  let main_v7 : IVec S_ 1 := (fun x v => Host.reduce IntOp.andi x v reducesTo_S65536x420_S_d0_1 h_S_) main_v6 main_c_1
  let main_v8 : IVec S_ 1 := andi main_v3 main_v7
  let main_v9 : FVec F S65536x4 .f32 := Host.absf main_arg2
  let main_cst_2 : FVec F S_ .f32 := constant S_ .f32 0x7F800000#32
  let main_v10 : FVec F S65536x4 .f32 := broadcastInDim S65536x4 ![] bcast_S_S65536x4 main_cst_2
  let main_v11 : IVec S65536x4 1 := cmpf .olt main_v9 main_v10
  let main_c_3 : IVec S_ 1 := constantI S_ 1 1#1
  let main_v12 : IVec S_ 1 := (fun x v => Host.reduce IntOp.andi x v reducesTo_S65536x4_S_d0_1 h_S_) main_v11 main_c_3
  let main_v13 : IVec S_ 1 := andi main_v8 main_v12
  let main_v14 : FVec F S600x20 .f32 := Host.absf main_arg3
  let main_cst_4 : FVec F S_ .f32 := constant S_ .f32 0x7F800000#32
  let main_v15 : FVec F S600x20 .f32 := broadcastInDim S600x20 ![] bcast_S_S600x20 main_cst_4
  let main_v16 : IVec S600x20 1 := cmpf .olt main_v14 main_v15
  fn_part1 (F := F) main_arg4 main_arg5 main_arg6 main_arg7 main_arg8 main_arg9 main_arg10 main_arg11 main_arg12 main_arg13 main_v13 main_v16
-- ==== Kernel.lean ====
abbrev S65536x272 : Shape := ⟨2, ![65536, 272]⟩
abbrev S65536x420 : Shape := ⟨2, ![65536, 420]⟩
abbrev S65536x4 : Shape := ⟨2, ![65536, 4]⟩
abbrev S600x20 : Shape := ⟨2, ![600, 20]⟩
abbrev S600x200 : Shape := ⟨2, ![600, 200]⟩
abbrev S600 : Shape := ⟨1, ![600]⟩
abbrev S384x320 : Shape := ⟨2, ![384, 320]⟩
abbrev S384x128 : Shape := ⟨2, ![384, 128]⟩
abbrev S384 : Shape := ⟨1, ![384]⟩
abbrev S8x128 : Shape := ⟨2, ![8, 128]⟩
abbrev S8 : Shape := ⟨1, ![8]⟩
abbrev S64x200 : Shape := ⟨2, ![64, 200]⟩
abbrev S1024x272 : Shape := ⟨2, ![1024, 272]⟩
abbrev S1024x420 : Shape := ⟨2, ![1024, 420]⟩
abbrev S1024x4 : Shape := ⟨2, ![1024, 4]⟩
abbrev S1024x200 : Shape := ⟨2, ![1024, 200]⟩
abbrev S1024x128 : Shape := ⟨2, ![1024, 128]⟩
abbrev S1024x64 : Shape := ⟨2, ![1024, 64]⟩
abbrev S1024x256 : Shape := ⟨2, ![1024, 256]⟩
abbrev S1024x16 : Shape := ⟨2, ![1024, 16]⟩
abbrev S1024x320 : Shape := ⟨2, ![1024, 320]⟩
abbrev S320x384 : Shape := ⟨2, ![320, 384]⟩
abbrev S1024x384 : Shape := ⟨2, ![1024, 384]⟩
abbrev S1x384 : Shape := ⟨2, ![1, 384]⟩
abbrev S128x384 : Shape := ⟨2, ![128, 384]⟩
abbrev S128x8 : Shape := ⟨2, ![128, 8]⟩
abbrev S1024x8 : Shape := ⟨2, ![1024, 8]⟩
abbrev S1x8 : Shape := ⟨2, ![1, 8]⟩
abbrev S1024x20 : Shape := ⟨2, ![1024, 20]⟩
abbrev S20x600 : Shape := ⟨2, ![20, 600]⟩
abbrev S1024x600 : Shape := ⟨2, ![1024, 600]⟩
abbrev S1x600 : Shape := ⟨2, ![1, 600]⟩
abbrev S200x600 : Shape := ⟨2, ![200, 600]⟩
abbrev S64 : Shape := ⟨1, ![64]⟩
abbrev S64x1 : Shape := ⟨2, ![64, 1]⟩
abbrev S200x64 : Shape := ⟨2, ![200, 64]⟩

abbrev nBuf : Space → Nat
  | .hbm => 15
  | .vmem => 19
  | .smem => 0
  | _ => 0

abbrev bufTy : (tb : Table) → Fin (tcTables nBuf tb) → BufTy
  | .hbm, ⟨0, _⟩ => ⟨S65536x272, .f32⟩
  | .hbm, ⟨1, _⟩ => ⟨S65536x420, .f32⟩
  | .hbm, ⟨2, _⟩ => ⟨S65536x4, .f32⟩
  | .hbm, ⟨3, _⟩ => ⟨S600x20, .f32⟩
  | .hbm, ⟨4, _⟩ => ⟨S600x200, .f32⟩
  | .hbm, ⟨5, _⟩ => ⟨S600, .f32⟩
  | .hbm, ⟨6, _⟩ => ⟨S600, .f32⟩
  | .hbm, ⟨7, _⟩ => ⟨S384x320, .f32⟩
  | .hbm, ⟨8, _⟩ => ⟨S384x128, .f32⟩
  | .hbm, ⟨9, _⟩ => ⟨S384, .f32⟩
  | .hbm, ⟨10, _⟩ => ⟨S384, .f32⟩
  | .hbm, ⟨11, _⟩ => ⟨S8x128, .f32⟩
  | .hbm, ⟨12, _⟩ => ⟨S8, .f32⟩
  | .hbm, ⟨13, _⟩ => ⟨S64x200, .f32⟩
  | .hbm, ⟨14, _⟩ => ⟨S65536x420, .f32⟩
  | .local _ .vmem, ⟨0, _⟩ => ⟨S1024x272, .f32⟩
  | .local _ .vmem, ⟨1, _⟩ => ⟨S1024x272, .f32⟩
  | .local _ .vmem, ⟨2, _⟩ => ⟨S1024x420, .f32⟩
  | .local _ .vmem, ⟨3, _⟩ => ⟨S1024x420, .f32⟩
  | .local _ .vmem, ⟨4, _⟩ => ⟨S1024x4, .f32⟩
  | .local _ .vmem, ⟨5, _⟩ => ⟨S1024x4, .f32⟩
  | .local _ .vmem, ⟨6, _⟩ => ⟨S600x20, .f32⟩
  | .local _ .vmem, ⟨7, _⟩ => ⟨S600x200, .f32⟩
  | .local _ .vmem, ⟨8, _⟩ => ⟨S600, .f32⟩
  | .local _ .vmem, ⟨9, _⟩ => ⟨S600, .f32⟩
  | .local _ .vmem, ⟨10, _⟩ => ⟨S384x320, .f32⟩
  | .local _ .vmem, ⟨11, _⟩ => ⟨S384x128, .f32⟩
  | .local _ .vmem, ⟨12, _⟩ => ⟨S384, .f32⟩
  | .local _ .vmem, ⟨13, _⟩ => ⟨S384, .f32⟩
  | .local _ .vmem, ⟨14, _⟩ => ⟨S8x128, .f32⟩
  | .local _ .vmem, ⟨15, _⟩ => ⟨S8, .f32⟩
  | .local _ .vmem, ⟨16, _⟩ => ⟨S64x200, .f32⟩
  | .local _ .vmem, ⟨17, _⟩ => ⟨S1024x420, .f32⟩
  | .local _ .vmem, ⟨18, _⟩ => ⟨S1024x420, .f32⟩
  | _, _ => ⟨S65536x272, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg14_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem14_1 : DmaSem sig := 18

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x272 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x420 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S600x20 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S600x200 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S600 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S600 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S384x320 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S384x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S384 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S384 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S8 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S64x200 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S1024x420 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

class Facts₀ : Prop where
  inb_S1024x420_S1024x420_0_0 : ∀ a, (![0, 0] : Fin 2 → Nat) a + S1024x420.size a ≤ S1024x420.size a
  h_S1024x420 : 0 < S1024x420.numel
  slices_S1024x420_o0_0_S1024x200 : S1024x420.Slices ![0, 0] S1024x200
  slices_S1024x420_o0_200_S1024x128 : S1024x420.Slices ![0, 200] S1024x128
  slices_S1024x420_o0_356_S1024x64 : S1024x420.Slices ![0, 356] S1024x64
  inb_S1024x272_S1024x272_0_0 : ∀ a, (![0, 0] : Fin 2 → Nat) a + S1024x272.size a ≤ S1024x272.size a
  h_S1024x272 : 0 < S1024x272.numel
  slices_S1024x272_o0_0_S1024x256 : S1024x272.Slices ![0, 0] S1024x256
  slices_S1024x272_o0_256_S1024x16 : S1024x272.Slices ![0, 256] S1024x16
  concatenates_S1024x256_S1024x64_S1024x320_d1 : Shape.Concatenates [S1024x256, S1024x64] S1024x320 1
  inb_S384x320_S384x320_0_0 : ∀ a, (![0, 0] : Fin 2 → Nat) a + S384x320.size a ≤ S384x320.size a
  h_S384x320 : 0 < S384x320.numel
  inb_S384x128_S384x128_0_0 : ∀ a, (![0, 0] : Fin 2 → Nat) a + S384x128.size a ≤ S384x128.size a
  h_S384x128 : 0 < S384x128.numel
  inb_S384_S384_0 : ∀ a, (![0] : Fin 1 → Nat) a + S384.size a ≤ S384.size a
  h_S384 : 0 < S384.numel
  bitsLt_bf16_f32 : FTy.bits .bf16 < FTy.bits .f32
  transposes_S384x320_p1_0_S320x384 : S384x320.Transposes [1, 0] S320x384
  shapeCasts_S384_S1x384 : S384.ShapeCasts S1x384
  broadcasts_S1x384_S1024x384 : S1x384.Broadcasts S1024x384
  transposes_S384x128_p1_0_S128x384 : S384x128.Transposes [1, 0] S128x384
  slices_S1024x384_o0_0_S1024x128 : S1024x384.Slices ![0, 0] S1024x128
  slices_S1024x384_o0_128_S1024x128 : S1024x384.Slices ![0, 128] S1024x128
  slices_S1024x384_o0_256_S1024x128 : S1024x384.Slices ![0, 256] S1024x128
  inb_S8x128_S8x128_0_0 : ∀ a, (![0, 0] : Fin 2 → Nat) a + S8x128.size a ≤ S8x128.size a
  h_S8x128 : 0 < S8x128.numel
  transposes_S8x128_p1_0_S128x8 : S8x128.Transposes [1, 0] S128x8
  inb_S8_S8_0 : ∀ a, (![0] : Fin 1 → Nat) a + S8.size a ≤ S8.size a
  h_S8 : 0 < S8.numel
  shapeCasts_S8_S1x8 : S8.ShapeCasts S1x8
  broadcasts_S1x8_S1024x8 : S1x8.Broadcasts S1024x8
  slices_S1024x8_o0_0_S1024x4 : S1024x8.Slices ![0, 0] S1024x4
  slices_S1024x8_o0_4_S1024x4 : S1024x8.Slices ![0, 4] S1024x4
  inb_S1024x4_S1024x4_0_0 : ∀ a, (![0, 0] : Fin 2 → Nat) a + S1024x4.size a ≤ S1024x4.size a
  h_S1024x4 : 0 < S1024x4.numel
  concatenates_S1024x4_S1024x16_S1024x20_d1 : Shape.Concatenates [S1024x4, S1024x16] S1024x20 1
  inb_S600x20_S600x20_0_0 : ∀ a, (![0, 0] : Fin 2 → Nat) a + S600x20.size a ≤ S600x20.size a
  h_S600x20 : 0 < S600x20.numel
  inb_S600x200_S600x200_0_0 : ∀ a, (![0, 0] : Fin 2 → Nat) a + S600x200.size a ≤ S600x200.size a
  h_S600x200 : 0 < S600x200.numel
  inb_S600_S600_0 : ∀ a, (![0] : Fin 1 → Nat) a + S600.size a ≤ S600.size a
  h_S600 : 0 < S600.numel
  transposes_S600x20_p1_0_S20x600 : S600x20.Transposes [1, 0] S20x600
  shapeCasts_S600_S1x600 : S600.ShapeCasts S1x600
  broadcasts_S1x600_S1024x600 : S1x600.Broadcasts S1024x600
  transposes_S600x200_p1_0_S200x600 : S600x200.Transposes [1, 0] S200x600
  slices_S1024x600_o0_0_S1024x200 : S1024x600.Slices ![0, 0] S1024x200
  slices_S1024x600_o0_200_S1024x200 : S1024x600.Slices ![0, 200] S1024x200
  slices_S1024x600_o0_400_S1024x200 : S1024x600.Slices ![0, 400] S1024x200
  inb_S64x200_S64x200_0_0 : ∀ a, (![0, 0] : Fin 2 → Nat) a + S64x200.size a ≤ S64x200.size a
  h_S64x200 : 0 < S64x200.numel
  reduces_S64x200_S64 : S64x200.Reduces [1] S64
  shapeCasts_S64_S64x1 : S64.ShapeCasts S64x1
  broadcasts_S64x1_S64x200 : S64x1.Broadcasts S64x200
  transposes_S64x200_p1_0_S200x64 : S64x200.Transposes [1, 0] S200x64
  concatenates_S1024x200_S1024x128_S1024x4_S1024x4_S1024x20_S1024x64_S1024x420_d1 : Shape.Concatenates [S1024x200, S1024x128, S1024x4, S1024x4, S1024x20, S1024x64] S1024x420 1
  dot_S1024x320_S320x384_S1024x384_1_0_0_1_n_n_wf : DotDims.WF S1024x320 S320x384 S1024x384 [1] [0] [0] [1] [] []
  dot_S1024x128_S128x384_S1024x384_1_0_0_1_n_n_wf : DotDims.WF S1024x128 S128x384 S1024x384 [1] [0] [0] [1] [] []
  dot_S1024x128_S128x8_S1024x8_1_0_0_1_n_n_wf : DotDims.WF S1024x128 S128x8 S1024x8 [1] [0] [0] [1] [] []
  dot_S1024x20_S20x600_S1024x600_1_0_0_1_n_n_wf : DotDims.WF S1024x20 S20x600 S1024x600 [1] [0] [0] [1] [] []
  dot_S1024x200_S200x600_S1024x600_1_0_0_1_n_n_wf : DotDims.WF S1024x200 S200x600 S1024x600 [1] [0] [0] [1] [] []
  dot_S1024x200_S200x64_S1024x64_1_0_0_1_n_n_wf : DotDims.WF S1024x200 S200x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x272.size a ≤ S65536x272.size a
  hwx0_0 : ∀ i : grid0.Coords, EltTy.bits .f32 = 32 ∨ (Rect.block (s := S65536x272) S1024x272.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x420.size a ≤ S65536x420.size a
  hwx0_1 : ∀ i : grid0.Coords, EltTy.bits .f32 = 32 ∨ (Rect.block (s := S65536x420) S1024x420.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x4.size a ≤ S65536x4.size a
  hwx0_2 : ∀ i : grid0.Coords, EltTy.bits .f32 = 32 ∨ (Rect.block (s := S65536x4) S1024x4.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S600x20.size a ≤ S600x20.size a
  hwx0_3 : ∀ i : grid0.Coords, EltTy.bits .f32 = 32 ∨ (Rect.block (s := S600x20) S600x20.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S600x200.size a ≤ S600x200.size a
  hwx0_4 : ∀ i : grid0.Coords, EltTy.bits .f32 = 32 ∨ (Rect.block (s := S600x200) S600x200.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S600.size a ≤ S600.size a
  hwx0_5 : ∀ i : grid0.Coords, EltTy.bits .f32 = 32 ∨ (Rect.block (s := S600) S600.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S600.size a ≤ S600.size a
  hwx0_6 : ∀ i : grid0.Coords, EltTy.bits .f32 = 32 ∨ (Rect.block (s := S600) S600.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S384x320.size a ≤ S384x320.size a
  hwx0_7 : ∀ i : grid0.Coords, EltTy.bits .f32 = 32 ∨ (Rect.block (s := S384x320) S384x320.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S384x128.size a ≤ S384x128.size a
  hwx0_8 : ∀ i : grid0.Coords, EltTy.bits .f32 = 32 ∨ (Rect.block (s := S384x128) S384x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S384.size a ≤ S384.size a
  hwx0_9 : ∀ i : grid0.Coords, EltTy.bits .f32 = 32 ∨ (Rect.block (s := S384) S384.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S384.size a ≤ S384.size a
  hwx0_10 : ∀ i : grid0.Coords, EltTy.bits .f32 = 32 ∨ (Rect.block (s := S384) S384.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S8x128.size a ≤ S8x128.size a
  hwx0_11 : ∀ i : grid0.Coords, EltTy.bits .f32 = 32 ∨ (Rect.block (s := S8x128) S8x128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S8.size a ≤ S8.size a
  hwx0_12 : ∀ i : grid0.Coords, EltTy.bits .f32 = 32 ∨ (Rect.block (s := S8) S8.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S64x200.size a ≤ S64x200.size a
  hwx0_13 : ∀ i : grid0.Coords, EltTy.bits .f32 = 32 ∨ (Rect.block (s := S64x200) S64x200.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S1024x420.size a ≤ S65536x420.size a
  hwx0_14 : ∀ i : grid0.Coords, EltTy.bits .f32 = 32 ∨ (Rect.block (s := S65536x420) S1024x420.size (cc0_transform_14 i) (hinb0_14 i)).WholeWords (EltTy.packing .f32)

variable [Facts₀]

def dot_S1024x320_S320x384_S1024x384_1_0_0_1_n_n : DotDims S1024x320 S320x384 S1024x384 where
  lhsContracting := [1]
  rhsContracting := [0]
  lhsNonContracting := [0]
  rhsNonContracting := [1]
  lhsBatch := []
  rhsBatch := []
  wf := dot_S1024x320_S320x384_S1024x384_1_0_0_1_n_n_wf
def dot_S1024x128_S128x384_S1024x384_1_0_0_1_n_n : DotDims S1024x128 S128x384 S1024x384 where
  lhsContracting := [1]
  rhsContracting := [0]
  lhsNonContracting := [0]
  rhsNonContracting := [1]
  lhsBatch := []
  rhsBatch := []
  wf := dot_S1024x128_S128x384_S1024x384_1_0_0_1_n_n_wf
def dot_S1024x128_S128x8_S1024x8_1_0_0_1_n_n : DotDims S1024x128 S128x8 S1024x8 where
  lhsContracting := [1]
  rhsContracting := [0]
  lhsNonContracting := [0]
  rhsNonContracting := [1]
  lhsBatch := []
  rhsBatch := []
  wf := dot_S1024x128_S128x8_S1024x8_1_0_0_1_n_n_wf
def dot_S1024x20_S20x600_S1024x600_1_0_0_1_n_n : DotDims S1024x20 S20x600 S1024x600 where
  lhsContracting := [1]
  rhsContracting := [0]
  lhsNonContracting := [0]
  rhsNonContracting := [1]
  lhsBatch := []
  rhsBatch := []
  wf := dot_S1024x20_S20x600_S1024x600_1_0_0_1_n_n_wf
def dot_S1024x200_S200x600_S1024x600_1_0_0_1_n_n : DotDims S1024x200 S200x600 S1024x600 where
  lhsContracting := [1]
  rhsContracting := [0]
  lhsNonContracting := [0]
  rhsNonContracting := [1]
  lhsBatch := []
  rhsBatch := []
  wf := dot_S1024x200_S200x600_S1024x600_1_0_0_1_n_n_wf
def dot_S1024x200_S200x64_S1024x64_1_0_0_1_n_n : DotDims S1024x200 S200x64 S1024x64 where
  lhsContracting := [1]
  rhsContracting := [0]
  lhsNonContracting := [0]
  rhsNonContracting := [1]
  lhsBatch := []
  rhsBatch := []
  wf := dot_S1024x200_S200x64_S1024x64_1_0_0_1_n_n_wf

abbrev win0_0 : Pipeline.Window sig grid0 :=
  Pipeline.Window.ofSpec (Memref.whole main_arg0) S1024x272.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x420.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x4.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S600x20.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S600x200.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S600.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S600.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S384x320.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S384x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S384.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S384.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S8x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S8.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg13) S64x200.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v0) S1024x420.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

class Facts : Prop extends Facts₀ where

variable [Facts]
-- ==== ReferenceIdeal.lean ====
abbrev S65536x272 : Shape := ⟨2, ![65536, 272]⟩
abbrev S65536x420 : Shape := ⟨2, ![65536, 420]⟩
abbrev S65536x4 : Shape := ⟨2, ![65536, 4]⟩
abbrev S600x20 : Shape := ⟨2, ![600, 20]⟩
abbrev S600x200 : Shape := ⟨2, ![600, 200]⟩
abbrev S600 : Shape := ⟨1, ![600]⟩
abbrev S384x320 : Shape := ⟨2, ![384, 320]⟩
abbrev S384x128 : Shape := ⟨2, ![384, 128]⟩
abbrev S384 : Shape := ⟨1, ![384]⟩
abbrev S8x128 : Shape := ⟨2, ![8, 128]⟩
abbrev S8 : Shape := ⟨1, ![8]⟩
abbrev S64x200 : Shape := ⟨2, ![64, 200]⟩
abbrev S65536x200 : Shape := ⟨2, ![65536, 200]⟩
abbrev S65536x128 : Shape := ⟨2, ![65536, 128]⟩
abbrev S65536x64 : Shape := ⟨2, ![65536, 64]⟩
abbrev S65536x256 : Shape := ⟨2, ![65536, 256]⟩
abbrev S65536x16 : Shape := ⟨2, ![65536, 16]⟩
abbrev S65536x320 : Shape := ⟨2, ![65536, 320]⟩
abbrev S320x384 : Shape := ⟨2, ![320, 384]⟩
abbrev S65536x384 : Shape := ⟨2, ![65536, 384]⟩
abbrev S1x384 : Shape := ⟨2, ![1, 384]⟩
abbrev S128x384 : Shape := ⟨2, ![128, 384]⟩
abbrev S_ : Shape := ⟨0, ![]⟩
abbrev S128x8 : Shape := ⟨2, ![128, 8]⟩
abbrev S65536x8 : Shape := ⟨2, ![65536, 8]⟩
abbrev S1x8 : Shape := ⟨2, ![1, 8]⟩
abbrev S65536x20 : Shape := ⟨2, ![65536, 20]⟩
abbrev S20x600 : Shape := ⟨2, ![20, 600]⟩
abbrev S65536x600 : Shape := ⟨2, ![65536, 600]⟩
abbrev S1x600 : Shape := ⟨2, ![1, 600]⟩
abbrev S200x600 : Shape := ⟨2, ![200, 600]⟩
abbrev S64 : Shape := ⟨1, ![64]⟩
abbrev S64x1 : Shape := ⟨2, ![64, 1]⟩
abbrev S200x64 : Shape := ⟨2, ![200, 64]⟩

abbrev nBuf : Space → Nat
  | .hbm => 149
  | .vmem => 0
  | .smem => 0
  | _ => 0

abbrev hbmTy0_0 (i : Nat) : BufTy := match i % 128 with
  | 0 => ⟨S65536x272, .f32⟩
  | 1 => ⟨S65536x420, .f32⟩
  | 2 => ⟨S65536x4, .f32⟩
  | 3 => ⟨S600x20, .f32⟩
  | 4 => ⟨S600x200, .f32⟩
  | 5 => ⟨S600, .f32⟩
  | 6 => ⟨S600, .f32⟩
  | 7 => ⟨S384x320, .f32⟩
  | 8 => ⟨S384x128, .f32⟩
  | 9 => ⟨S384, .f32⟩
  | 10 => ⟨S384, .f32⟩
  | 11 => ⟨S8x128, .f32⟩
  | 12 => ⟨S8, .f32⟩
  | 13 => ⟨S64x200, .f32⟩
  | 14 => ⟨S65536x200, .f32⟩
  | 15 => ⟨S65536x128, .f32⟩
  | 16 => ⟨S65536x64, .f32⟩
  | 17 => ⟨S65536x256, .f32⟩
  | 18 => ⟨S65536x16, .f32⟩
  | 19 => ⟨S65536x320, .f32⟩
  | 20 => ⟨S320x384, .f32⟩
  | 21 => ⟨S65536x384, .f32⟩
  | 22 => ⟨S1x384, .f32⟩
  | 23 => ⟨S65536x384, .f32⟩
  | 24 => ⟨S65536x384, .f32⟩
  | 25 => ⟨S128x384, .f32⟩
  | 26 => ⟨S65536x384, .f32⟩
  | 27 => ⟨S1x384, .f32⟩
  | 28 => ⟨S65536x384, .f32⟩
  | 29 => ⟨S65536x384, .f32⟩
  | 30 => ⟨S65536x128, .f32⟩
  | 31 => ⟨S65536x128, .f32⟩
  | 32 => ⟨S65536x128, .f32⟩
  | 33 => ⟨S65536x128, .f32⟩
  | 34 => ⟨S65536x128, .f32⟩
  | 35 => ⟨S65536x128, .f32⟩
  | 36 => ⟨S65536x128, .f32⟩
  | 37 => ⟨S65536x128, .f32⟩
  | 38 => ⟨S65536x128, .f32⟩
  | 39 => ⟨S_, .f32⟩
  | 40 => ⟨S65536x128, .f32⟩
  | 41 => ⟨S65536x128, .f32⟩
  | 42 => ⟨S_, .f32⟩
  | 43 => ⟨S65536x128, .f32⟩
  | 44 => ⟨S65536x128, .f32⟩
  | 45 => ⟨S65536x128, .f32⟩
  | 46 => ⟨S65536x128, .f32⟩
  | 47 => ⟨S65536x128, .f32⟩
  | 48 => ⟨S_, .f32⟩
  | 49 => ⟨S65536x128, .f32⟩
  | 50 => ⟨S65536x128, .f32⟩
  | 51 => ⟨S_, .f32⟩
  | 52 => ⟨S65536x128, .f32⟩
  | 53 => ⟨S65536x128, .f32⟩
  | 54 => ⟨S65536x128, .f32⟩
  | 55 => ⟨S65536x128, .f32⟩
  | 56 => ⟨S65536x128, .f32⟩
  | 57 => ⟨S_, .f32⟩
  | 58 => ⟨S65536x128, .f32⟩
  | 59 => ⟨S65536x128, .f32⟩
  | 60 => ⟨S65536x128, .f32⟩
  | 61 => ⟨S65536x128, .f32⟩
  | 62 => ⟨S65536x128, .f32⟩
  | 63 => ⟨S_, .f32⟩
  | 64 => ⟨S_, .f32⟩
  | 65 => ⟨S_, .f32⟩
  | 66 => ⟨S65536x128, .f32⟩
  | 67 => ⟨S65536x128, .f32⟩
  | 68 => ⟨S_, .f32⟩
  | 69 => ⟨S65536x128, .f32⟩
  | 70 => ⟨S65536x128, .f32⟩
  | 71 => ⟨S128x8, .f32⟩
  | 72 => ⟨S65536x8, .f32⟩
  | 73 => ⟨S1x8, .f32⟩
  | 74 => ⟨S65536x8, .f32⟩
  | 75 => ⟨S65536x8, .f32⟩
  | 76 => ⟨S65536x4, .f32⟩
  | 77 => ⟨S65536x4, .f32⟩
  | 78 => ⟨S_, .f32⟩
  | 79 => ⟨S65536x4, .f32⟩
  | 80 => ⟨S65536x4, .f32⟩
  | 81 => ⟨S65536x4, .f32⟩
  | 82 => ⟨S65536x4, .f32⟩
  | 83 => ⟨S65536x4, .f32⟩
  | 84 => ⟨S65536x20, .f32⟩
  | 85 => ⟨S20x600, .f32⟩
  | 86 => ⟨S65536x600, .f32⟩
  | 87 => ⟨S1x600, .f32⟩
  | 88 => ⟨S65536x600, .f32⟩
  | 89 => ⟨S65536x600, .f32⟩
  | 90 => ⟨S200x600, .f32⟩
  | 91 => ⟨S65536x600, .f32⟩
  | 92 => ⟨S1x600, .f32⟩
  | 93 => ⟨S65536x600, .f32⟩
  | 94 => ⟨S65536x600, .f32⟩
  | 95 => ⟨S65536x200, .f32⟩
  | 96 => ⟨S65536x200, .f32⟩
  | 97 => ⟨S65536x200, .f32⟩
  | 98 => ⟨S65536x200, .f32⟩
  | 99 => ⟨S65536x200, .f32⟩
  | 100 => ⟨S65536x200, .f32⟩
  | 101 => ⟨S65536x200, .f32⟩
  | 102 => ⟨S65536x200, .f32⟩
  | 103 => ⟨S65536x200, .f32⟩
  | 104 => ⟨S_, .f32⟩
  | 105 => ⟨S65536x200, .f32⟩
  | 106 => ⟨S65536x200, .f32⟩
  | 107 => ⟨S_, .f32⟩
  | 108 => ⟨S65536x200, .f32⟩
  | 109 => ⟨S65536x200, .f32⟩
  | 110 => ⟨S65536x200, .f32⟩
  | 111 => ⟨S65536x200, .f32⟩
  | 112 => ⟨S65536x200, .f32⟩
  | 113 => ⟨S_, .f32⟩
  | 114 => ⟨S65536x200, .f32⟩
  | 115 => ⟨S65536x200, .f32⟩
  | 116 => ⟨S_, .f32⟩
  | 117 => ⟨S65536x200, .f32⟩
  | 118 => ⟨S65536x200, .f32⟩
  | 119 => ⟨S65536x200, .f32⟩
  | 120 => ⟨S65536x200, .f32⟩
  | 121 => ⟨S65536x200, .f32⟩
  | 122 => ⟨S_, .f32⟩
  | 123 => ⟨S65536x200, .f32⟩
  | 124 => ⟨S65536x200, .f32⟩
  | 125 => ⟨S65536x200, .f32⟩
  | 126 => ⟨S65536x200, .f32⟩
  | 127 => ⟨S65536x200, .f32⟩
  | _ => ⟨S65536x272, .f32⟩

abbrev hbmTy0_1 (i : Nat) : BufTy := match i % 128 with
  | 0 => ⟨S_, .f32⟩
  | 1 => ⟨S_, .f32⟩
  | 2 => ⟨S_, .f32⟩
  | 3 => ⟨S65536x200, .f32⟩
  | 4 => ⟨S65536x200, .f32⟩
  | 5 => ⟨S_, .f32⟩
  | 6 => ⟨S65536x200, .f32⟩
  | 7 => ⟨S65536x200, .f32⟩
  | 8 => ⟨S64x200, .f32⟩
  | 9 => ⟨S_, .f32⟩
  | 10 => ⟨S64, .f32⟩
  | 11 => ⟨S64x1, .f32⟩
  | 12 => ⟨S64x1, .f32⟩
  | 13 => ⟨S_, .f32⟩
  | 14 => ⟨S64x1, .f32⟩
  | 15 => ⟨S64x1, .f32⟩
  | 16 => ⟨S64x200, .f32⟩
  | 17 => ⟨S64x200, .f32⟩
  | 18 => ⟨S200x64, .f32⟩
  | 19 => ⟨S65536x64, .f32⟩
  | 20 => ⟨S65536x420, .f32⟩
  | _ => ⟨S65536x272, .f32⟩

abbrev hbmTy (i : Nat) : BufTy := match i / 128 with
  | 0 => hbmTy0_0 i
  | 1 => hbmTy0_1 i
  | _ => ⟨S65536x272, .f32⟩

abbrev bufTy : (tb : Table) → Fin (tcTables nBuf tb) → BufTy
  | .hbm, ⟨i, _⟩ => hbmTy i
  | _, _ => ⟨S65536x272, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst : Ref sig .tc := ⟨.hbm, 39, rfl⟩
abbrev main_v25 : Ref sig .tc := ⟨.hbm, 40, rfl⟩
abbrev main_v26 : Ref sig .tc := ⟨.hbm, 41, rfl⟩
abbrev main_cst_0 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_1 : Ref sig .tc := ⟨.hbm, 48, rfl⟩
abbrev main_v32 : Ref sig .tc := ⟨.hbm, 49, rfl⟩
abbrev main_v33 : Ref sig .tc := ⟨.hbm, 50, rfl⟩
abbrev main_cst_2 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_3 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_4 : Ref sig .tc := ⟨.hbm, 63, rfl⟩
abbrev main_cst_5 : Ref sig .tc := ⟨.hbm, 64, rfl⟩
abbrev main_call0_v0 : Ref sig .tc := ⟨.hbm, 65, rfl⟩
abbrev main_call0_v1 : Ref sig .tc := ⟨.hbm, 66, rfl⟩
abbrev main_call0_v2 : Ref sig .tc := ⟨.hbm, 67, rfl⟩
abbrev main_call0_v3 : Ref sig .tc := ⟨.hbm, 68, rfl⟩
abbrev main_call0_v4 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_cst_6 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_cst_7 : Ref sig .tc := ⟨.hbm, 104, rfl⟩
abbrev main_v77 : Ref sig .tc := ⟨.hbm, 105, rfl⟩
abbrev main_v78 : Ref sig .tc := ⟨.hbm, 106, rfl⟩
abbrev main_cst_8 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_cst_9 : Ref sig .tc := ⟨.hbm, 113, rfl⟩
abbrev main_v84 : Ref sig .tc := ⟨.hbm, 114, rfl⟩
abbrev main_v85 : Ref sig .tc := ⟨.hbm, 115, rfl⟩
abbrev main_cst_10 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_cst_11 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_cst_12 : Ref sig .tc := ⟨.hbm, 128, rfl⟩
abbrev main_cst_13 : Ref sig .tc := ⟨.hbm, 129, rfl⟩
abbrev main_call1_v0 : Ref sig .tc := ⟨.hbm, 130, rfl⟩
abbrev main_call1_v1 : Ref sig .tc := ⟨.hbm, 131, rfl⟩
abbrev main_call1_v2 : Ref sig .tc := ⟨.hbm, 132, rfl⟩
abbrev main_call1_v3 : Ref sig .tc := ⟨.hbm, 133, rfl⟩
abbrev main_call1_v4 : Ref sig .tc := ⟨.hbm, 134, rfl⟩
abbrev main_v96 : Ref sig .tc := ⟨.hbm, 135, rfl⟩
abbrev main_call2_v0 : Ref sig .tc := ⟨.hbm, 136, rfl⟩
abbrev main_call2_cst : Ref sig .tc := ⟨.hbm, 137, rfl⟩
abbrev main_call2_v1 : Ref sig .tc := ⟨.hbm, 138, rfl⟩
abbrev main_call2_v2 : Ref sig .tc := ⟨.hbm, 139, rfl⟩
abbrev main_v97 : Ref sig .tc := ⟨.hbm, 140, rfl⟩
abbrev main_cst_14 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩

abbrev nD : Nat := 1
abbrev τ : Topo := Topo.v7x

variable {F : FTy → Type} [FloatOps F]

class Facts₀ : Prop where
  slices_S65536x420_S65536x200_0_0 : S65536x420.Slices ![0, 0] S65536x200
  slices_S65536x420_S65536x128_0_200 : S65536x420.Slices ![0, 200] S65536x128
  slices_S65536x420_S65536x64_0_356 : S65536x420.Slices ![0, 356] S65536x64
  slices_S65536x272_S65536x256_0_0 : S65536x272.Slices ![0, 0] S65536x256
  slices_S65536x272_S65536x16_0_256 : S65536x272.Slices ![0, 256] S65536x16
  concatenates_S65536x256_S65536x64_S65536x320_d1 : Shape.Concatenates [S65536x256, S65536x64] S65536x320 1
  transposes_S384x320_S320x384_1_0 : S384x320.Transposes [1, 0] S320x384
  bcast_S384_S1x384_1 : S384.BroadcastsInDim S1x384 (![1] : Fin 1 → Fin S1x384.rank)
  bcast_S1x384_S65536x384_0_1 : S1x384.BroadcastsInDim S65536x384 (![0, 1] : Fin 2 → Fin S65536x384.rank)
  transposes_S384x128_S128x384_1_0 : S384x128.Transposes [1, 0] S128x384
  slices_S65536x384_S65536x128_0_0 : S65536x384.Slices ![0, 0] S65536x128
  slices_S65536x384_S65536x128_0_128 : S65536x384.Slices ![0, 128] S65536x128
  slices_S65536x384_S65536x128_0_256 : S65536x384.Slices ![0, 256] S65536x128
  bcast_S_S65536x128 : S_.BroadcastsInDim S65536x128 (![] : Fin 0 → Fin S65536x128.rank)
  transposes_S8x128_S128x8_1_0 : S8x128.Transposes [1, 0] S128x8
  bcast_S8_S1x8_1 : S8.BroadcastsInDim S1x8 (![1] : Fin 1 → Fin S1x8.rank)
  bcast_S1x8_S65536x8_0_1 : S1x8.BroadcastsInDim S65536x8 (![0, 1] : Fin 2 → Fin S65536x8.rank)
  slices_S65536x8_S65536x4_0_0 : S65536x8.Slices ![0, 0] S65536x4
  slices_S65536x8_S65536x4_0_4 : S65536x8.Slices ![0, 4] S65536x4
  bcast_S_S65536x4 : S_.BroadcastsInDim S65536x4 (![] : Fin 0 → Fin S65536x4.rank)
  concatenates_S65536x4_S65536x16_S65536x20_d1 : Shape.Concatenates [S65536x4, S65536x16] S65536x20 1
  transposes_S600x20_S20x600_1_0 : S600x20.Transposes [1, 0] S20x600
  bcast_S600_S1x600_1 : S600.BroadcastsInDim S1x600 (![1] : Fin 1 → Fin S1x600.rank)
  bcast_S1x600_S65536x600_0_1 : S1x600.BroadcastsInDim S65536x600 (![0, 1] : Fin 2 → Fin S65536x600.rank)
  transposes_S600x200_S200x600_1_0 : S600x200.Transposes [1, 0] S200x600
  slices_S65536x600_S65536x200_0_0 : S65536x600.Slices ![0, 0] S65536x200
  slices_S65536x600_S65536x200_0_200 : S65536x600.Slices ![0, 200] S65536x200
  slices_S65536x600_S65536x200_0_400 : S65536x600.Slices ![0, 400] S65536x200
  bcast_S_S65536x200 : S_.BroadcastsInDim S65536x200 (![] : Fin 0 → Fin S65536x200.rank)
  reducesTo_S64x200_S64_d1 : S64x200.ReducesTo [1] S64
  h_S_ : 0 < S_.numel
  bcast_S64_S64x1_0 : S64.BroadcastsInDim S64x1 (![0] : Fin 1 → Fin S64x1.rank)
  bcast_S_S64x1 : S_.BroadcastsInDim S64x1 (![] : Fin 0 → Fin S64x1.rank)
  bcast_S64x1_S64x200_0_1 : S64x1.BroadcastsInDim S64x200 (![0, 1] : Fin 2 → Fin S64x200.rank)
  transposes_S64x200_S200x64_1_0 : S64x200.Transposes [1, 0] S200x64
  concatenates_S65536x200_S65536x128_S65536x4_S65536x4_S65536x20_S65536x64_S65536x420_d1 : Shape.Concatenates [S65536x200, S65536x128, S65536x4, S65536x4, S65536x20, S65536x64] S65536x420 1
  dot_S65536x320_S320x384_S65536x384_1_0_0_1_n_n_wf : DotDims.WF S65536x320 S320x384 S65536x384 [1] [0] [0] [1] [] []
  dot_S65536x128_S128x384_S65536x384_1_0_0_1_n_n_wf : DotDims.WF S65536x128 S128x384 S65536x384 [1] [0] [0] [1] [] []
  dot_S65536x128_S128x8_S65536x8_1_0_0_1_n_n_wf : DotDims.WF S65536x128 S128x8 S65536x8 [1] [0] [0] [1] [] []
  dot_S65536x20_S20x600_S65536x600_1_0_0_1_n_n_wf : DotDims.WF S65536x20 S20x600 S65536x600 [1] [0] [0] [1] [] []
  dot_S65536x200_S200x600_S65536x600_1_0_0_1_n_n_wf : DotDims.WF S65536x200 S200x600 S65536x600 [1] [0] [0] [1] [] []
  dot_S65536x200_S200x64_S65536x64_1_0_0_1_n_n_wf : DotDims.WF S65536x200 S200x64 S65536x64 [1] [0] [0] [1] [] []

variable [Facts₀]

def dot_S65536x320_S320x384_S65536x384_1_0_0_1_n_n : DotDims S65536x320 S320x384 S65536x384 where
  lhsContracting := [1]
  rhsContracting := [0]
  lhsNonContracting := [0]
  rhsNonContracting := [1]
  lhsBatch := []
  rhsBatch := []
  wf := dot_S65536x320_S320x384_S65536x384_1_0_0_1_n_n_wf
def dot_S65536x128_S128x384_S65536x384_1_0_0_1_n_n : DotDims S65536x128 S128x384 S65536x384 where
  lhsContracting := [1]
  rhsContracting := [0]
  lhsNonContracting := [0]
  rhsNonContracting := [1]
  lhsBatch := []
  rhsBatch := []
  wf := dot_S65536x128_S128x384_S65536x384_1_0_0_1_n_n_wf
def dot_S65536x128_S128x8_S65536x8_1_0_0_1_n_n : DotDims S65536x128 S128x8 S65536x8 where
  lhsContracting := [1]
  rhsContracting := [0]
  lhsNonContracting := [0]
  rhsNonContracting := [1]
  lhsBatch := []
  rhsBatch := []
  wf := dot_S65536x128_S128x8_S65536x8_1_0_0_1_n_n_wf
def dot_S65536x20_S20x600_S65536x600_1_0_0_1_n_n : DotDims S65536x20 S20x600 S65536x600 where
  lhsContracting := [1]
  rhsContracting := [0]
  lhsNonContracting := [0]
  rhsNonContracting := [1]
  lhsBatch := []
  rhsBatch := []
  wf := dot_S65536x20_S20x600_S65536x600_1_0_0_1_n_n_wf
def dot_S65536x200_S200x600_S65536x600_1_0_0_1_n_n : DotDims S65536x200 S200x600 S65536x600 where
  lhsContracting := [1]
  rhsContracting := [0]
  lhsNonContracting := [0]
  rhsNonContracting := [1]
  lhsBatch := []
  rhsBatch := []
  wf := dot_S65536x200_S200x600_S65536x600_1_0_0_1_n_n_wf
def dot_S65536x200_S200x64_S65536x64_1_0_0_1_n_n : DotDims S65536x200 S200x64 S65536x64 where
  lhsContracting := [1]
  rhsContracting := [0]
  lhsNonContracting := [0]
  rhsNonContracting := [1]
  lhsBatch := []
  rhsBatch := []
  wf := dot_S65536x200_S200x64_S65536x64_1_0_0_1_n_n_wf

class Facts : Prop extends Facts₀ where

variable [Facts]
-- ==== Proof.LibRowBlock.lean ====
/-
  Row blocks of a matrix under operations that treat rows independently, at the exact instance.

  A matrix `a` with `B` rows IS THE `t`-TH ROW BLOCK of a matrix `A` with the same columns when
  `a (p, j) = A (B·t + p, j)` for every row `p` of the block. Every operation that computes row `r` of its
  result from rows `r` of its operands alone sends row blocks to row blocks: a column slice, a concatenation
  along the columns, a pointwise operation, a constant splat, a bias row added to every row, and a product with a
  matrix on the right (row `r` of `L·R` is `∑ₖ L(r,k)·R(k,·)`). The lemmas below say so, one per operation,
  with the whole-matrix side spelt as a host program spells it and the block side as a kernel body does.
-/
import Idealize.ShloMosaic.Lib.ValueIdx
import Idealize.ShloMosaic.Lib.ValueLayout
import Idealize.ShloMosaic.Lib.Pipeline.Value
import Idealize.ShloMosaic.PureOps.Ideal.Laws

noncomputable section

namespace Cert.RowBlock

open Idealize.ShloMosaic Idealize.ShloMosaic.ValueIdx

/-- `a` is rows `B·t, …, B·t + B − 1` of `A`. -/
def IsRows {α : Type} {N n : Nat} (B t : Nat) (A : (⟨2, ![N, n]⟩ : Shape).Idx → α) (a : (⟨2, ![B, n]⟩ : Shape).Idx → α) : Prop :=
  ∀ (p : Fin B) (j : Fin n) (r : Fin N), r.val = B * t + p.val → a (ix2 p j) = A (ix2 r j)

namespace IsRows

variable {α : Type} {N n B t : Nat}

/-! ## Layout -/

/-- Columns `o, …, o + m − 1` of a row block are the row block of those columns. -/
theorem slice {A : (⟨2, ![N, n]⟩ : Shape).Idx → α} {a : (⟨2, ![B, n]⟩ : Shape).Idx → α} (H : IsRows B t A a) (o m : Nat)
    (hA : (⟨2, ![N, n]⟩ : Shape).Slices ![0, o] ⟨2, ![N, m]⟩) (ha : (⟨2, ![B, n]⟩ : Shape).Slices ![0, o] ⟨2, ![B, m]⟩) :
    IsRows B t (extractStridedSlice ⟨2, ![N, m]⟩ ![0, o] A hA) (extractStridedSlice ⟨2, ![B, m]⟩ ![0, o] a ha) := by
  intro p j r hr
  rw [slice2_axis1_eq, slice2_axis1_eq]
  exact H p _ r hr

/-- A concatenation along the columns read at column `j`: piece `k`, whose columns start at `pre`, at column `j − pre`. -/
theorem concat_cols_apply {R n m : Nat} (xs : List ((s : Shape) × (s.Idx → α)))
    (h : Shape.Concatenates (xs.map (·.1)) ⟨2, ![R, n]⟩ 1)
    (k : Nat) (hk : k < xs.length) (x : (⟨2, ![R, m]⟩ : Shape).Idx → α) (hxk : xs[k] = ⟨⟨2, ![R, m]⟩, x⟩) (pre : Nat)
    (hpre : (((xs.take k).map (·.1)).map fun s => if h : s.rank = (⟨2, ![R, n]⟩ : Shape).rank
        then s.size ((1 : Fin (⟨2, ![R, n]⟩ : Shape).rank).cast h.symm) else 0).sum = pre)
    (r : Fin R) (j : Fin n) (j' : Fin m) (hj : pre + j'.val = j.val) :
    concatenate ⟨2, ![R, n]⟩ 1 xs h (ix2 r j) = x (ix2 r j') :=
  concatenate_apply_piece 1 xs h (ix2 r j) k hk _ x hxk rfl pre hpre (ix2 r j')
    (fun b hb => by
      match b with
      | ⟨0, _⟩ => rfl
      | ⟨1, _⟩ => exact absurd rfl hb) hj

/-- Two row blocks side by side are the row block of the two matrices side by side. -/
theorem concat2 {n₁ n₂ : Nat} {A₁ : (⟨2, ![N, n₁]⟩ : Shape).Idx → α} {a₁ : (⟨2, ![B, n₁]⟩ : Shape).Idx → α}
    {A₂ : (⟨2, ![N, n₂]⟩ : Shape).Idx → α} {a₂ : (⟨2, ![B, n₂]⟩ : Shape).Idx → α}
    (H₁ : IsRows B t A₁ a₁) (H₂ : IsRows B t A₂ a₂) (hn : n = n₁ + n₂)
    (hA : Shape.Concatenates [(⟨2, ![N, n₁]⟩ : Shape), ⟨2, ![N, n₂]⟩] ⟨2, ![N, n]⟩ 1)
    (ha : Shape.Concatenates [(⟨2, ![B, n₁]⟩ : Shape), ⟨2, ![B, n₂]⟩] ⟨2, ![B, n]⟩ 1) :
    IsRows B t (concatenate ⟨2, ![N, n]⟩ 1 [⟨⟨2, ![N, n₁]⟩, A₁⟩, ⟨⟨2, ![N, n₂]⟩, A₂⟩] hA)
      (concatenate ⟨2, ![B, n]⟩ 1 [⟨⟨2, ![B, n₁]⟩, a₁⟩, ⟨⟨2, ![B, n₂]⟩, a₂⟩] ha) := by
  intro p j r hr
  by_cases hj : j.val < n₁
  · rw [concat_cols_apply [⟨⟨2, ![N, n₁]⟩, A₁⟩, ⟨⟨2, ![N, n₂]⟩, A₂⟩] hA 0 (by simp) A₁ rfl 0 rfl r j ⟨j.val, hj⟩ (Nat.zero_add _),
      concat_cols_apply [⟨⟨2, ![B, n₁]⟩, a₁⟩, ⟨⟨2, ![B, n₂]⟩, a₂⟩] ha 0 (by simp) a₁ rfl 0 rfl p j ⟨j.val, hj⟩ (Nat.zero_add _)]
    exact H₁ p _ r hr
  · have hj2 : j.val - n₁ < n₂ := by have := j.isLt; omega
    have hj3 : n₁ + (j.val - n₁) = j.val := by omega
    rw [concat_cols_apply [⟨⟨2, ![N, n₁]⟩, A₁⟩, ⟨⟨2, ![N, n₂]⟩, A₂⟩] hA 1 (by simp) A₂ rfl n₁ rfl r j ⟨j.val - n₁, hj2⟩ hj3,
      concat_cols_apply [⟨⟨2, ![B, n₁]⟩, a₁⟩, ⟨⟨2, ![B, n₂]⟩, a₂⟩] ha 1 (by simp) a₂ rfl n₁ rfl p j ⟨j.val - n₁, hj2⟩ hj3]
    exact H₂ p _ r hr

/-- Six row blocks side by side are the row block of the six matrices side by side. -/
theorem concat6 {n₁ n₂ n₃ n₄ n₅ n₆ : Nat}
    {A₁ : (⟨2, ![N, n₁]⟩ : Shape).Idx → α} {a₁ : (⟨2, ![B, n₁]⟩ : Shape).Idx → α}
    {A₂ : (⟨2, ![N, n₂]⟩ : Shape).Idx → α} {a₂ : (⟨2, ![B, n₂]⟩ : Shape).Idx → α}
    {A₃ : (⟨2, ![N, n₃]⟩ : Shape).Idx → α} {a₃ : (⟨2, ![B, n₃]⟩ : Shape).Idx → α}
    {A₄ : (⟨2, ![N, n₄]⟩ : Shape).Idx → α} {a₄ : (⟨2, ![B, n₄]⟩ : Shape).Idx → α}
    {A₅ : (⟨2, ![N, n₅]⟩ : Shape).Idx → α} {a₅ : (⟨2, ![B, n₅]⟩ : Shape).Idx → α}
    {A₆ : (⟨2, ![N, n₆]⟩ : Shape).Idx → α} {a₆ : (⟨2, ![B, n₆]⟩ : Shape).Idx → α}
    (H₁ : IsRows B t A₁ a₁) (H₂ : IsRows B t A₂ a₂) (H₃ : IsRows B t A₃ a₃) (H₄ : IsRows B t A₄ a₄)
    (H₅ : IsRows B t A₅ a₅) (H₆ : IsRows B t A₆ a₆) (hn : n = n₁ + n₂ + n₃ + n₄ + n₅ + n₆)
    (hA : Shape.Concatenates [(⟨2, ![N, n₁]⟩ : Shape), ⟨2, ![N, n₂]⟩, ⟨2, ![N, n₃]⟩, ⟨2, ![N, n₄]⟩, ⟨2, ![N, n₅]⟩, ⟨2, ![N, n₆]⟩] ⟨2, ![N, n]⟩ 1)
    (ha : Shape.Concatenates [(⟨2, ![B, n₁]⟩ : Shape), ⟨2, ![B, n₂]⟩, ⟨2, ![B, n₃]⟩, ⟨2, ![B, n₄]⟩, ⟨2, ![B, n₅]⟩, ⟨2, ![B, n₆]⟩] ⟨2, ![B, n]⟩ 1) :
    IsRows B t
      (concatenate ⟨2, ![N, n]⟩ 1 [⟨⟨2, ![N, n₁]⟩, A₁⟩, ⟨⟨2, ![N, n₂]⟩, A₂⟩, ⟨⟨2, ![N, n₃]⟩, A₃⟩, ⟨⟨2, ![N, n₄]⟩, A₄⟩, ⟨⟨2, ![N, n₅]⟩, A₅⟩, ⟨⟨2, ![N, n₆]⟩, A₆⟩] hA)
      (concatenate ⟨2, ![B, n]⟩ 1 [⟨⟨2, ![B, n₁]⟩, a₁⟩, ⟨⟨2, ![B, n₂]⟩, a₂⟩, ⟨⟨2, ![B, n₃]⟩, a₃⟩, ⟨⟨2, ![B, n₄]⟩, a₄⟩, ⟨⟨2, ![B, n₅]⟩, a₅⟩, ⟨⟨2, ![B, n₆]⟩, a₆⟩] ha) := by
  intro p j r hr
  have hjn := j.isLt
  by_cases c₁ : j.val < n₁
  · rw [concat_cols_apply [⟨⟨2, ![N, n₁]⟩, A₁⟩, ⟨⟨2, ![N, n₂]⟩, A₂⟩, ⟨⟨2, ![N, n₃]⟩, A₃⟩, ⟨⟨2, ![N, n₄]⟩, A₄⟩, ⟨⟨2, ![N, n₅]⟩, A₅⟩, ⟨⟨2, ![N, n₆]⟩, A₆⟩] hA 0 (by simp) A₁ rfl 0 rfl r j ⟨j.val, c₁⟩ (Nat.zero_add _),
      concat_cols_apply [⟨⟨2, ![B, n₁]⟩, a₁⟩, ⟨⟨2, ![B, n₂]⟩, a₂⟩, ⟨⟨2, ![B, n₃]⟩, a₃⟩, ⟨⟨2, ![B, n₄]⟩, a₄⟩, ⟨⟨2, ![B, n₅]⟩, a₅⟩, ⟨⟨2, ![B, n₆]⟩, a₆⟩] ha 0 (by simp) a₁ rfl 0 rfl p j ⟨j.val, c₁⟩ (Nat.zero_add _)]
    exact H₁ p _ r hr
  by_cases c₂ : j.val < n₁ + n₂
  · have hb : j.val - n₁ < n₂ := by omega
    have he : n₁ + (j.val - n₁) = j.val := by omega
    rw [concat_cols_apply [⟨⟨2, ![N, n₁]⟩, A₁⟩, ⟨⟨2, ![N, n₂]⟩, A₂⟩, ⟨⟨2, ![N, n₃]⟩, A₃⟩, ⟨⟨2, ![N, n₄]⟩, A₄⟩, ⟨⟨2, ![N, n₅]⟩, A₅⟩, ⟨⟨2, ![N, n₆]⟩, A₆⟩] hA 1 (by simp) A₂ rfl n₁ rfl r j ⟨j.val - n₁, hb⟩ he,
      concat_cols_apply [⟨⟨2, ![B, n₁]⟩, a₁⟩, ⟨⟨2, ![B, n₂]⟩, a₂⟩, ⟨⟨2, ![B, n₃]⟩, a₃⟩, ⟨⟨2, ![B, n₄]⟩, a₄⟩, ⟨⟨2, ![B, n₅]⟩, a₅⟩, ⟨⟨2, ![B, n₆]⟩, a₆⟩] ha 1 (by simp) a₂ rfl n₁ rfl p j ⟨j.val - n₁, hb⟩ he]
    exact H₂ p _ r hr
  by_cases c₃ : j.val < n₁ + n₂ + n₃
  · have hb : j.val - (n₁ + n₂) < n₃ := by omega
    have he : n₁ + n₂ + (j.val - (n₁ + n₂)) = j.val := by omega
    rw [concat_cols_apply [⟨⟨2, ![N, n₁]⟩, A₁⟩, ⟨⟨2, ![N, n₂]⟩, A₂⟩, ⟨⟨2, ![N, n₃]⟩, A₃⟩, ⟨⟨2, ![N, n₄]⟩, A₄⟩, ⟨⟨2, ![N, n₅]⟩, A₅⟩, ⟨⟨2, ![N, n₆]⟩, A₆⟩] hA 2 (by simp) A₃ rfl (n₁ + n₂) (by simp) r j ⟨j.val - (n₁ + n₂), hb⟩ he,
      concat_cols_apply [⟨⟨2, ![B, n₁]⟩, a₁⟩, ⟨⟨2, ![B, n₂]⟩, a₂⟩, ⟨⟨2, ![B, n₃]⟩, a₃⟩, ⟨⟨2, ![B, n₄]⟩, a₄⟩, ⟨⟨2, ![B, n₅]⟩, a₅⟩, ⟨⟨2, ![B, n₆]⟩, a₆⟩] ha 2 (by simp) a₃ rfl (n₁ + n₂) (by simp) p j ⟨j.val - (n₁ + n₂), hb⟩ he]
    exact H₃ p _ r hr
  by_cases c₄ : j.val < n₁ + n₂ + n₃ + n₄
  · have hb : j.val - (n₁ + n₂ + n₃) < n₄ := by omega
    have he : n₁ + n₂ + n₃ + (j.val - (n₁ + n₂ + n₃)) = j.val := by omega
    rw [concat_cols_apply [⟨⟨2, ![N, n₁]⟩, A₁⟩, ⟨⟨2, ![N, n₂]⟩, A₂⟩, ⟨⟨2, ![N, n₃]⟩, A₃⟩, ⟨⟨2, ![N, n₄]⟩, A₄⟩, ⟨⟨2, ![N, n₅]⟩, A₅⟩, ⟨⟨2, ![N, n₆]⟩, A₆⟩] hA 3 (by simp) A₄ rfl (n₁ + n₂ + n₃) (by simp; omega) r j ⟨j.val - (n₁ + n₂ + n₃), hb⟩ he,
      concat_cols_apply [⟨⟨2, ![B, n₁]⟩, a₁⟩, ⟨⟨2, ![B, n₂]⟩, a₂⟩, ⟨⟨2, ![B, n₃]⟩, a₃⟩, ⟨⟨2, ![B, n₄]⟩, a₄⟩, ⟨⟨2, ![B, n₅]⟩, a₅⟩, ⟨⟨2, ![B, n₆]⟩, a₆⟩] ha 3 (by simp) a₄ rfl (n₁ + n₂ + n₃) (by simp; omega) p j ⟨j.val - (n₁ + n₂ + n₃), hb⟩ he]
    exact H₄ p _ r hr
  by_cases c₅ : j.val < n₁ + n₂ + n₃ + n₄ + n₅
  · have hb : j.val - (n₁ + n₂ + n₃ + n₄) < n₅ := by omega
    have he : n₁ + n₂ + n₃ + n₄ + (j.val - (n₁ + n₂ + n₃ + n₄)) = j.val := by omega
    rw [concat_cols_apply [⟨⟨2, ![N, n₁]⟩, A₁⟩, ⟨⟨2, ![N, n₂]⟩, A₂⟩, ⟨⟨2, ![N, n₃]⟩, A₃⟩, ⟨⟨2, ![N, n₄]⟩, A₄⟩, ⟨⟨2, ![N, n₅]⟩, A₅⟩, ⟨⟨2, ![N, n₆]⟩, A₆⟩] hA 4 (by simp) A₅ rfl (n₁ + n₂ + n₃ + n₄) (by simp; omega) r j ⟨j.val - (n₁ + n₂ + n₃ + n₄), hb⟩ he,
      concat_cols_apply [⟨⟨2, ![B, n₁]⟩, a₁⟩, ⟨⟨2, ![B, n₂]⟩, a₂⟩, ⟨⟨2, ![B, n₃]⟩, a₃⟩, ⟨⟨2, ![B, n₄]⟩, a₄⟩, ⟨⟨2, ![B, n₅]⟩, a₅⟩, ⟨⟨2, ![B, n₆]⟩, a₆⟩] ha 4 (by simp) a₅ rfl (n₁ + n₂ + n₃ + n₄) (by simp; omega) p j ⟨j.val - (n₁ + n₂ + n₃ + n₄), hb⟩ he]
    exact H₅ p _ r hr
  · have hb : j.val - (n₁ + n₂ + n₃ + n₄ + n₅) < n₆ := by omega
    have he : n₁ + n₂ + n₃ + n₄ + n₅ + (j.val - (n₁ + n₂ + n₃ + n₄ + n₅)) = j.val := by omega
    rw [concat_cols_apply [⟨⟨2, ![N, n₁]⟩, A₁⟩, ⟨⟨2, ![N, n₂]⟩, A₂⟩, ⟨⟨2, ![N, n₃]⟩, A₃⟩, ⟨⟨2, ![N, n₄]⟩, A₄⟩, ⟨⟨2, ![N, n₅]⟩, A₅⟩, ⟨⟨2, ![N, n₆]⟩, A₆⟩] hA 5 (by simp) A₆ rfl (n₁ + n₂ + n₃ + n₄ + n₅) (by simp; omega) r j ⟨j.val - (n₁ + n₂ + n₃ + n₄ + n₅), hb⟩ he,
      concat_cols_apply [⟨⟨2, ![B, n₁]⟩, a₁⟩, ⟨⟨2, ![B, n₂]⟩, a₂⟩, ⟨⟨2, ![B, n₃]⟩, a₃⟩, ⟨⟨2, ![B, n₄]⟩, a₄⟩, ⟨⟨2, ![B, n₅]⟩, a₅⟩, ⟨⟨2, ![B, n₆]⟩, a₆⟩] ha 5 (by simp) a₆ rfl (n₁ + n₂ + n₃ + n₄ + n₅) (by simp; omega) p j ⟨j.val - (n₁ + n₂ + n₃ + n₄ + n₅), hb⟩ he]
    exact H₆ p _ r hr

/-- One row broadcast over all rows: its row block is the same row broadcast over the block's rows. -/
theorem bias (b : (⟨1, ![n]⟩ : Shape).Idx → α) (h1 : (⟨1, ![n]⟩ : Shape).BroadcastsInDim ⟨2, ![1, n]⟩ ![1])
    (h2 : (⟨2, ![1, n]⟩ : Shape).BroadcastsInDim ⟨2, ![N, n]⟩ ![0, 1])
    (hc : (⟨1, ![n]⟩ : Shape).ShapeCasts ⟨2, ![1, n]⟩) (hb : (⟨2, ![1, n]⟩ : Shape).Broadcasts ⟨2, ![B, n]⟩) :
    IsRows B t (broadcastInDim ⟨2, ![N, n]⟩ ![0, 1] h2 (broadcastInDim ⟨2, ![1, n]⟩ ![1] h1 b))
      (broadcastTo ⟨2, ![B, n]⟩ (shapeCast ⟨2, ![1, n]⟩ b hc) hb) := by
  intro p j r _
  rw [broadcastTo_1b_ab_apply, shapeCast_a_1a_apply]
  refine Eq.symm ((broadcastInDim_apply ![0, 1] h2 _ (ix2 r j) (ix2 (0 : Fin 1) j) fun a => ?_).trans
    (broadcastInDim_apply ![1] h1 b (ix2 (0 : Fin 1) j) (ix1 j) fun a => ?_))
  · match a with
    | ⟨0, _⟩ => rfl
    | ⟨1, _⟩ =>
      show j.val = if n = 1 then 0 else j.val
      split
      · have := j.isLt; omega
      · rfl
  · match a with
    | ⟨0, _⟩ =>
      show j.val = if n = 1 then 0 else j.val
      split
      · have := j.isLt; omega
      · rfl

/-! ## Pointwise operations at the exact instance -/

section Arith
variable {φ : FTy} {A A' : FVec Ideal ⟨2, ![N, n]⟩ φ} {a a' : FVec Ideal ⟨2, ![B, n]⟩ φ}

/-- A constant splat: every entry is the constant's value, in the matrix and in the block. -/
theorem splat (φ : FTy) (c : BitVec φ.bits) (h : (⟨0, ![]⟩ : Shape).BroadcastsInDim ⟨2, ![N, n]⟩ ![]) :
    IsRows B t (broadcastInDim ⟨2, ![N, n]⟩ ![] h (constant (F := Ideal) ⟨0, ![]⟩ φ c))
      (broadcast ⟨2, ![B, n]⟩ (Scalar.ofBits (F := Ideal) φ c)) :=
  fun _ _ _ _ => rfl

/-- A change of float format is the identity on extended reals. -/
theorem trunc {ψ : FTy} (H : IsRows B t A a) (h : ψ.bits < φ.bits) : IsRows B t A (truncf ψ a h) :=
  fun p j r hr => H p j r hr

theorem add (H : IsRows B t A a) (H' : IsRows B t A' a') : IsRows B t (addf A A') (addf a a') := by
  intro p j r hr
  rw [addf_apply, addf_apply, H p j r hr, H' p j r hr]

theorem mul (H : IsRows B t A a) (H' : IsRows B t A' a') : IsRows B t (mulf A A') (mulf a a') := by
  intro p j r hr
  rw [mulf_apply, mulf_apply, H p j r hr, H' p j r hr]

theorem sub (H : IsRows B t A a) (H' : IsRows B t A' a') : IsRows B t (subf A A') (subf a a') := by
  intro p j r hr
  rw [subf_apply, subf_apply, H p j r hr, H' p j r hr]

theorem maxf (H : IsRows B t A a) (H' : IsRows B t A' a') : IsRows B t (maximumf A A') (maximumf a a') := by
  intro p j r hr
  rw [maximumf_apply, maximumf_apply, H p j r hr, H' p j r hr]

theorem minf (H : IsRows B t A a) (H' : IsRows B t A' a') : IsRows B t (minimumf A A') (minimumf a a') := by
  intro p j r hr
  rw [minimumf_apply, minimumf_apply, H p j r hr, H' p j r hr]

/-- The host's exponential and the kernel's are one function of an extended real. -/
theorem expf (H : IsRows B t A a) : IsRows B t (Host.exp A) (exp a) := by
  intro p j r hr
  show Ideal.exp (a (ix2 p j)) = Ideal.exp (A (ix2 r j))
  rw [H p j r hr]

/-- The host's hyperbolic tangent and the kernel's are one function of an extended real. -/
theorem tanhf (H : IsRows B t A a) : IsRows B t (Host.tanh A) (tanh a) := by
  intro p j r hr
  show Ideal.tanh (a (ix2 p j)) = Ideal.tanh (A (ix2 r j))
  rw [H p j r hr]

end Arith

/-- The word of the float 1 denotes the real 1. -/
theorem ofBits_one_f32 : Ideal.ofBits .f32 0x3F800000#32 = 1 := by
  simp [Ideal.ofBits, Ideal.ieee, -EReal.coe_mul]; norm_num

/-- The logistic function `1 / (1 + e⁻ˣ)`: spelt out with a negation, an exponential, a sum and a quotient on the whole
    matrix, and as one operation on the block; the two are one function of an extended real by definition. -/
theorem sigmoid {A : FVec Ideal ⟨2, ![N, n]⟩ .f32} {a : FVec Ideal ⟨2, ![B, n]⟩ .f32} (H : IsRows B t A a)
    (h1 h2 : (⟨0, ![]⟩ : Shape).BroadcastsInDim ⟨2, ![N, n]⟩ ![]) :
    IsRows B t
      (Host.divf (broadcastInDim ⟨2, ![N, n]⟩ ![] h1 (constant (F := Ideal) ⟨0, ![]⟩ .f32 0x3F800000#32))
        (addf (broadcastInDim ⟨2, ![N, n]⟩ ![] h2 (constant (F := Ideal) ⟨0, ![]⟩ .f32 0x3F800000#32)) (Host.exp (Host.negf A))))
      (logistic a) := by
  intro p j r hr
  show Ideal.logistic (a (ix2 p j))
    = Ideal.div (Ideal.ofBits .f32 0x3F800000#32) (Ideal.ofBits .f32 0x3F800000#32 + Ideal.exp (-(A (ix2 r j))))
  rw [ofBits_one_f32, H p j r hr]
  rfl

/-! ## A product with a matrix on the right -/

/-- The dimension numbers of a plain product `[M, K] × [K, N]`: the left operand contracted on its columns, the right on
    its rows, no batch axis. -/
def Plain {sl sr so : Shape} (D : DotDims sl sr so) (l1 l0 : Fin sl.rank) (r0 r1 : Fin sr.rank) : Prop :=
  D.lhsContracting = [l1] ∧ D.rhsContracting = [r0] ∧ D.lhsNonContracting = [l0] ∧ D.rhsNonContracting = [r1]
    ∧ D.lhsBatch = [] ∧ D.rhsBatch = []

/-- A plain product read at an entry is the sum over the shared axis. -/
theorem dot_plain_sum {M K N' : Nat} (D : DotDims ⟨2, ![M, K]⟩ ⟨2, ![K, N']⟩ ⟨2, ![M, N']⟩) (hD : Plain D 1 0 0 1)
    (L : (⟨2, ![M, K]⟩ : Shape).Idx → EReal) (R : (⟨2, ![K, N']⟩ : Shape).Idx → EReal) (r : Fin M) (c : Fin N') :
    ∑ k : D.contr.Idx, L (D.lhsIdx (ix2 r c) k) * R (D.rhsIdx (ix2 r c) k) = ∑ k : Fin K, L (ix2 r k) * R (ix2 k c) := by
  obtain ⟨lc, rc, ln, rn, lb, rb, wf⟩ := D
  obtain ⟨h1, h2, h3, h4, h5, h6⟩ := hD
  dsimp only at h1 h2 h3 h4 h5 h6
  subst h1 h2 h3 h4 h5 h6
  rw [← Equiv.sum_comp (contrEquiv1 (DotDims.mk [1] [0] [0] [1] [] [] wf) K rfl rfl).symm]
  refine Finset.sum_congr rfl fun k _ => ?_
  have hk := contrEquiv1_symm_val (DotDims.mk [1] [0] [0] [1] [] [] wf) K rfl rfl k
  have l0 : ∀ q, ((DotDims.mk [1] [0] [0] [1] [] [] wf).lhsIdx (ix2 r c) q 0).val = r.val := fun q => by
    unfold DotDims.lhsIdx
    rw [dif_neg (show ¬(0 : Fin 2) ∈ ([] : List (Fin 2)) by decide), dif_pos (show (0 : Fin 2) ∈ ([0] : List (Fin 2)) by decide)]
    rfl
  have r1 : ∀ q, ((DotDims.mk [1] [0] [0] [1] [] [] wf).rhsIdx (ix2 r c) q 1).val = c.val := fun q => by
    unfold DotDims.rhsIdx
    rw [dif_neg (show ¬(1 : Fin 2) ∈ ([] : List (Fin 2)) by decide), dif_pos (show (1 : Fin 2) ∈ ([1] : List (Fin 2)) by decide)]
    rfl
  have el : (DotDims.mk [1] [0] [0] [1] [] [] wf).lhsIdx (ix2 r c) ((contrEquiv1 (DotDims.mk [1] [0] [0] [1] [] [] wf) K rfl rfl).symm k)
      = ix2 r k := funext fun a => Fin.ext (by
    match a with
    | ⟨0, _⟩ => exact l0 _
    | ⟨1, _⟩ => exact ((DotDims.mk [1] [0] [0] [1] [] [] wf).lhsIdx_val_of_single rfl _ _).trans hk)
  have er : (DotDims.mk [1] [0] [0] [1] [] [] wf).rhsIdx (ix2 r c) ((contrEquiv1 (DotDims.mk [1] [0] [0] [1] [] [] wf) K rfl rfl).symm k)
      = ix2 k c := funext fun a => Fin.ext (by
    match a with
    | ⟨0, _⟩ => exact ((DotDims.mk [1] [0] [0] [1] [] [] wf).rhsIdx_val_of_single rfl _ _).trans hk
    | ⟨1, _⟩ => exact r1 _)
  rw [el, er]

/-- Rows of `L·R` depend on the same rows of `L` only: the host's product of the whole matrix against the kernel's
    product of the block into a zero accumulator, the right operand the same matrix on both sides. -/
theorem dot {K M : Nat} {φ₁ φ₂ : FTy} {L : FVec Ideal ⟨2, ![N, K]⟩ .f32} {l : FVec Ideal ⟨2, ![B, K]⟩ φ₁} (H : IsRows B t L l)
    (D : DotDims ⟨2, ![N, K]⟩ ⟨2, ![K, M]⟩ ⟨2, ![N, M]⟩) (d : DotDims ⟨2, ![B, K]⟩ ⟨2, ![K, M]⟩ ⟨2, ![B, M]⟩)
    (hD : Plain D 1 0 0 1) (hd : Plain d 1 0 0 1)
    (R : FVec Ideal ⟨2, ![K, M]⟩ .f32) (r : FVec Ideal ⟨2, ![K, M]⟩ φ₂) (hR : ∀ k j, r (ix2 k j) = R (ix2 k j)) :
    IsRows B t (Host.dotGeneral D none L R) (matmul d none l r (constant ⟨2, ![B, M]⟩ .f32 0x00000000#32)) := by
  intro p j r' hr
  simp only [Host.dotGeneral, matmul]
  rw [Ideal.matmul_constant_zero_apply, Ideal.dotGeneral_apply, dot_plain_sum d hd, dot_plain_sum D hD]
  exact Finset.sum_congr rfl fun k _ => by rw [H p k r' hr, hR]

end IsRows

end Cert.RowBlock

end
-- ==== Proof.Stages.lean ====
/-
  The decoder cell, stage by stage: a block of 1024 rows of every value the reference computes from the whole batch
  is what the kernel body computes from the same 1024 rows of `x`, `h0` and `eps` and the whole weight arrays.

  Both programs run, on each row, a controller GRU cell (gates `r, z = σ(·)`, candidate `n = tanh(·)`, new state
  `(1 − z)·n + z·h` clipped to `[−5, 5]`), a two-headed linear map giving a mean and a log-variance, the sample
  `mean + exp(½·logvar)·eps`, a generator GRU cell of the same form, and a linear map with rows normalised to unit length;
  each is a product with a weight matrix on the right, a bias row, column slices and pointwise operations, so each value's
  row block is the same operation of its operands' row blocks (LibRowBlock). The kernel's logistic function is the
  reference's `1 / (1 + e⁻ˣ)` by definition at the exact instance, and its changes of float format are the identity.
-/
import proofs.«117266_j3573412790665_1_alg».proof.Proof.Gen.KernelIdeal.Skeleton
import proofs.«117266_j3573412790665_1_alg».proof.Proof.Gen.ReferenceIdeal.Read
import proofs.«117266_j3573412790665_1_alg».proof.Proof.LibRowBlock

noncomputable section

namespace Cert.Stages

open Idealize.ShloMosaic Idealize.ShloMosaic.ValueIdx Cert.RowBlock
open Cert.ReferenceIdeal Cert.ReferenceIdeal.Gen Cert.ReferenceIdeal.Read

/-! ## The unit-length rows of the last weight matrix -/

/-- The last weight matrix with every row divided by its length (at least `1e-12`), transposed: the kernel's spelling (a
    lane sum, a square root on a column, a column broadcast along the rows) and the reference's (a host sum from zero, the same
    column) are one matrix. Both sums range over the same coordinates of the same squares. -/
abbrev kNormedT (W : FVec Ideal S64x200 .f32) : FVec Ideal Cert.KernelIdeal.S200x64 .bf16 :=
  transpose Cert.KernelIdeal.S200x64 [1, 0] (truncf .bf16 (divf W (broadcastTo Cert.KernelIdeal.S64x200 (maximumf (sqrt (shapeCast Cert.KernelIdeal.S64x1
        (multiReduction .add [1] Cert.KernelIdeal.S64 (mulf W W) 0x00000000#32 Cert.KernelIdeal.Gen.reduces_S64x200_S64 (.inl rfl) rfl) Cert.KernelIdeal.Gen.shapeCasts_S64_S64x1))
        (broadcast Cert.KernelIdeal.S64x1 (Scalar.ofBits (F := Ideal) .f32 0x2B8CBCCC#32))) Cert.KernelIdeal.Gen.broadcasts_S64x1_S64x200)) Cert.KernelIdeal.Gen.bitsLt_bf16_f32)
      Cert.KernelIdeal.Gen.transposes_S64x200_p1_0_S200x64

theorem normed_eq (W : FVec Ideal S64x200 .f32) (k : Fin 200) (j : Fin 64) :
    kNormedT W (ix2 k j) = val_main_v102 (F := Ideal) W (ix2 k j) := by
  unfold kNormedT val_main_v102 val_main_v101 val_main_v100 val_main_v99 val_main_v98 val_main_v97 val_main_call2_v2 val_main_call2_v1
    val_main_call2_v0 val_main_call2_cst val_main_cst_14
  rw [transpose_ix2_apply, transpose_ix2_apply]
  show Ideal.div (W (ix2 j k)) _ = Ideal.div (W (ix2 j k)) _
  congr 1
  rw [broadcastTo_apply _ Cert.KernelIdeal.Gen.broadcasts_S64x1_S64x200 (ix2 j k) (ix2 j (0 : Fin 1)) (fun a => by
      match a with
      | ⟨0, _⟩ => rfl
      | ⟨1, _⟩ => rfl),
    broadcastInDim_apply ![0, 1] bcast_S64x1_S64x200_0_1 _ (ix2 j k) (ix2 j (0 : Fin 1)) (fun a => by
      match a with
      | ⟨0, _⟩ => rfl
      | ⟨1, _⟩ => rfl)]
  rw [maximumf_apply, maximumf_apply]
  congr 1
  show Ideal.sqrt _ = Ideal.sqrt _
  congr 1
  rw [shapeCast_apply _ Cert.KernelIdeal.Gen.shapeCasts_S64_S64x1 (ix2 j (0 : Fin 1)) (ix1 j) (by
      rw [Shape.rowMajor_val_one, Shape.rowMajor_val_two]; show j.val = j.val * 1 + 0; omega),
    broadcastInDim_apply ![0] bcast_S64_S64x1_0 _ (ix2 j (0 : Fin 1)) (ix1 j) (fun a => by
      match a with
      | ⟨0, _⟩ => rfl)]
  refine (Ideal.multiReduction_add_single (mulf W W) 0x00000000#32 Cert.KernelIdeal.Gen.reduces_S64x200_S64 (.inl rfl) rfl (ix1 j)).trans ?_
  show _ = Ideal.hostReduceAdd reducesTo_S64x200_S64_d1 (mulf W W) (Ideal.ofBits .f32 0x00000000#32) (ix1 j)
  rw [Ideal.hostReduceAdd_single reducesTo_S64x200_S64_d1 Cert.KernelIdeal.Gen.reduces_S64x200_S64, Ideal.ofBits_zero_f32, zero_add]

/-! ## The stages -/

section
variable (t : Nat)
variable (X0 : FVec Ideal S65536x272 .f32) (X1 : FVec Ideal S65536x420 .f32) (X2 : FVec Ideal S65536x4 .f32)
variable (x0 : FVec Ideal Cert.KernelIdeal.S1024x272 .f32) (x1 : FVec Ideal Cert.KernelIdeal.S1024x420 .f32) (x2 : FVec Ideal Cert.KernelIdeal.S1024x4 .f32)
variable (W3 : FVec Ideal S600x20 .f32) (W4 : FVec Ideal S600x200 .f32) (W5 W6 : FVec Ideal S600 .f32)
variable (W7 : FVec Ideal S384x320 .f32) (W8 : FVec Ideal S384x128 .f32) (W9 W10 : FVec Ideal S384 .f32)
variable (W11 : FVec Ideal S8x128 .f32) (W12 : FVec Ideal S8 .f32) (W13 : FVec Ideal S64x200 .f32)
variable (h0 : IsRows 1024 t X0 x0) (h1 : IsRows 1024 t X1 x1) (h2 : IsRows 1024 t X2 x2)

/-- The clip bounds `−5` and `5`, as the body splats them. -/
abbrev lo : Ideal .f32 := Scalar.ofBits (F := Ideal) .f32 0xC0A00000#32
abbrev hi : Ideal .f32 := Scalar.ofBits (F := Ideal) .f32 0x40A00000#32

/-- The controller cell's new state before the clip. -/
abbrev kCon : FVec Ideal Cert.KernelIdeal.S1024x128 .f32 := Cert.KernelIdeal.Gen.k0_pay4 (F := Ideal) x1 x0 W7 W8 W9 W10
/-- The two-headed linear map of the clipped controller state: mean and log-variance side by side. -/
abbrev kHeads : FVec Ideal Cert.KernelIdeal.S1024x8 .f32 := Cert.KernelIdeal.Gen.k0_pay6 (F := Ideal) (kCon x0 x1 W7 W8 W9 W10) lo hi W11 W12
/-- The generator cell's input: the sample beside the external input. -/
abbrev kGenIn : FVec Ideal Cert.KernelIdeal.S1024x20 .f32 :=
  Cert.KernelIdeal.Gen.k0_pay9 (F := Ideal) (Cert.KernelIdeal.Gen.k0_pay3 x0) (kCon x0 x1 W7 W8 W9 W10) lo hi W11 W12 x2
/-- The generator cell's input-side gates. -/
abbrev kGi : FVec Ideal Cert.KernelIdeal.S1024x600 .f32 :=
  Cert.KernelIdeal.Gen.k0_pay10 (F := Ideal) (Cert.KernelIdeal.Gen.k0_pay3 x0) (kCon x0 x1 W7 W8 W9 W10) lo hi W11 W12 x2 W3 W5
/-- The generator cell's state-side gates. -/
abbrev kGh : FVec Ideal Cert.KernelIdeal.S1024x600 .f32 := Cert.KernelIdeal.Gen.k0_pay11 (F := Ideal) (Cert.KernelIdeal.Gen.k0_pay2 x1) W4 W6

include h0 h1 in
/-- The controller GRU cell: its new state before the clip. -/
theorem rows_con : IsRows 1024 t (val_main_v43 (F := Ideal) X0 X1 W7 W8 W9 W10) (kCon x0 x1 W7 W8 W9 W10) := by
  have v2 := h1.slice 200 128 slices_S65536x420_S65536x128_0_200 Cert.KernelIdeal.Gen.slices_S1024x420_o0_200_S1024x128
  have v3 := h1.slice 356 64 slices_S65536x420_S65536x64_0_356 Cert.KernelIdeal.Gen.slices_S1024x420_o0_356_S1024x64
  have v5 := h0.slice 0 256 slices_S65536x272_S65536x256_0_0 Cert.KernelIdeal.Gen.slices_S1024x272_o0_0_S1024x256
  have v7 := v5.concat2 v3 rfl concatenates_S65536x256_S65536x64_S65536x320_d1 Cert.KernelIdeal.Gen.concatenates_S1024x256_S1024x64_S1024x320_d1
  have v16 := (v7.trunc (ψ := .bf16) Cert.KernelIdeal.Gen.bitsLt_bf16_f32).dot dot_S65536x320_S320x384_S65536x384_1_0_0_1_n_n
    Cert.KernelIdeal.dot_S1024x320_S320x384_S1024x384_1_0_0_1_n_n ⟨rfl, rfl, rfl, rfl, rfl, rfl⟩ ⟨rfl, rfl, rfl, rfl, rfl, rfl⟩ (val_main_v6 (F := Ideal) W7)
    (transpose Cert.KernelIdeal.S320x384 [1, 0] (truncf .bf16 W7 Cert.KernelIdeal.Gen.bitsLt_bf16_f32) Cert.KernelIdeal.Gen.transposes_S384x320_p1_0_S320x384) (fun _ _ => rfl)
  have v19 := v16.add (IsRows.bias (B := 1024) (t := t) W9 bcast_S384_S1x384_1 bcast_S1x384_S65536x384_0_1
    Cert.KernelIdeal.Gen.shapeCasts_S384_S1x384 Cert.KernelIdeal.Gen.broadcasts_S1x384_S1024x384)
  have v22 := (v2.trunc (ψ := .bf16) Cert.KernelIdeal.Gen.bitsLt_bf16_f32).dot dot_S65536x128_S128x384_S65536x384_1_0_0_1_n_n
    Cert.KernelIdeal.dot_S1024x128_S128x384_S1024x384_1_0_0_1_n_n ⟨rfl, rfl, rfl, rfl, rfl, rfl⟩ ⟨rfl, rfl, rfl, rfl, rfl, rfl⟩ (val_main_v11 (F := Ideal) W8)
    (transpose Cert.KernelIdeal.S128x384 [1, 0] (truncf .bf16 W8 Cert.KernelIdeal.Gen.bitsLt_bf16_f32) Cert.KernelIdeal.Gen.transposes_S384x128_p1_0_S128x384) (fun _ _ => rfl)
  have v25 := v22.add (IsRows.bias (B := 1024) (t := t) W10 bcast_S384_S1x384_1 bcast_S1x384_S65536x384_0_1
    Cert.KernelIdeal.Gen.shapeCasts_S384_S1x384 Cert.KernelIdeal.Gen.broadcasts_S1x384_S1024x384)
  have v26 := v19.slice 0 128 slices_S65536x384_S65536x128_0_0 Cert.KernelIdeal.Gen.slices_S1024x384_o0_0_S1024x128
  have v27 := v19.slice 128 128 slices_S65536x384_S65536x128_0_128 Cert.KernelIdeal.Gen.slices_S1024x384_o0_128_S1024x128
  have v28 := v19.slice 256 128 slices_S65536x384_S65536x128_0_256 Cert.KernelIdeal.Gen.slices_S1024x384_o0_256_S1024x128
  have v29 := v25.slice 0 128 slices_S65536x384_S65536x128_0_0 Cert.KernelIdeal.Gen.slices_S1024x384_o0_0_S1024x128
  have v30 := v25.slice 128 128 slices_S65536x384_S65536x128_0_128 Cert.KernelIdeal.Gen.slices_S1024x384_o0_128_S1024x128
  have v31 := v25.slice 256 128 slices_S65536x384_S65536x128_0_256 Cert.KernelIdeal.Gen.slices_S1024x384_o0_256_S1024x128
  have v33 := (v26.add v29).sigmoid bcast_S_S65536x128 bcast_S_S65536x128
  have v35 := (v27.add v30).sigmoid bcast_S_S65536x128 bcast_S_S65536x128
  have v38 := (v28.add (v33.mul v31)).tanhf
  have v41 := ((IsRows.splat (B := 1024) (t := t) .f32 0x3F800000#32 bcast_S_S65536x128).sub v35).mul v38
  exact v41.add (v35.mul v2)

include h0 h1 in
/-- The controller cell's new state, clipped to `[−5, 5]`. -/
theorem rows_conClip : IsRows 1024 t (val_main_v44 (F := Ideal) X0 X1 W7 W8 W9 W10)
    (Cert.KernelIdeal.Gen.k0_pay5 (F := Ideal) (kCon x0 x1 W7 W8 W9 W10) lo hi) :=
  (IsRows.splat (B := 1024) (t := t) .f32 0x40A00000#32 bcast_S_S65536x128).minf
    ((IsRows.splat (B := 1024) (t := t) .f32 0xC0A00000#32 bcast_S_S65536x128).maxf (rows_con t X0 X1 x0 x1 W7 W8 W9 W10 h0 h1))

include h0 h1 in
/-- Mean and log-variance of the controller output, side by side. -/
theorem rows_heads : IsRows 1024 t (val_main_v49 (F := Ideal) X0 X1 W7 W8 W9 W10 W11 W12) (kHeads x0 x1 W7 W8 W9 W10 W11 W12) := by
  have c := rows_conClip t X0 X1 x0 x1 W7 W8 W9 W10 h0 h1
  have v52 := (c.trunc (ψ := .bf16) Cert.KernelIdeal.Gen.bitsLt_bf16_f32).dot dot_S65536x128_S128x8_S65536x8_1_0_0_1_n_n
    Cert.KernelIdeal.dot_S1024x128_S128x8_S1024x8_1_0_0_1_n_n ⟨rfl, rfl, rfl, rfl, rfl, rfl⟩ ⟨rfl, rfl, rfl, rfl, rfl, rfl⟩ (val_main_v45 (F := Ideal) W11)
    (transpose Cert.KernelIdeal.S128x8 [1, 0] (truncf .bf16 W11 Cert.KernelIdeal.Gen.bitsLt_bf16_f32) Cert.KernelIdeal.Gen.transposes_S8x128_p1_0_S128x8) (fun _ _ => rfl)
  exact v52.add (IsRows.bias (B := 1024) (t := t) W12 bcast_S8_S1x8_1 bcast_S1x8_S65536x8_0_1
    Cert.KernelIdeal.Gen.shapeCasts_S8_S1x8 Cert.KernelIdeal.Gen.broadcasts_S1x8_S1024x8)

include h0 h1 in
/-- The mean. -/
theorem rows_mean : IsRows 1024 t (val_main_v50 (F := Ideal) X0 X1 W7 W8 W9 W10 W11 W12)
    (Cert.KernelIdeal.Gen.k0_pay7 (F := Ideal) (kCon x0 x1 W7 W8 W9 W10) lo hi W11 W12) :=
  (rows_heads t X0 X1 x0 x1 W7 W8 W9 W10 W11 W12 h0 h1).slice 0 4 slices_S65536x8_S65536x4_0_0 Cert.KernelIdeal.Gen.slices_S1024x8_o0_0_S1024x4

include h0 h1 in
/-- The standard deviation `exp(½·logvar)`. -/
theorem rows_std : IsRows 1024 t (val_main_v54 (F := Ideal) X0 X1 W7 W8 W9 W10 W11 W12)
    (Cert.KernelIdeal.Gen.k0_pay8 (F := Ideal) (kCon x0 x1 W7 W8 W9 W10) lo hi W11 W12) :=
  ((IsRows.splat (B := 1024) (t := t) .f32 0x3F000000#32 bcast_S_S65536x4).mul
    ((rows_heads t X0 X1 x0 x1 W7 W8 W9 W10 W11 W12 h0 h1).slice 4 4 slices_S65536x8_S65536x4_0_4 Cert.KernelIdeal.Gen.slices_S1024x8_o0_4_S1024x4)).expf

include h0 h1 h2 in
/-- The generator's input: the sample `mean + std·eps` beside the external input. -/
theorem rows_genIn : IsRows 1024 t (val_main_v57 (F := Ideal) X0 X1 X2 W7 W8 W9 W10 W11 W12) (kGenIn x0 x1 x2 W7 W8 W9 W10 W11 W12) :=
  ((rows_mean t X0 X1 x0 x1 W7 W8 W9 W10 W11 W12 h0 h1).add ((rows_std t X0 X1 x0 x1 W7 W8 W9 W10 W11 W12 h0 h1).mul h2)).concat2
    (h0.slice 256 16 slices_S65536x272_S65536x16_0_256 Cert.KernelIdeal.Gen.slices_S1024x272_o0_256_S1024x16) rfl
    concatenates_S65536x4_S65536x16_S65536x20_d1 Cert.KernelIdeal.Gen.concatenates_S1024x4_S1024x16_S1024x20_d1

include h0 h1 h2 in
/-- The generator cell's input-side gates. -/
theorem rows_gi : IsRows 1024 t (val_main_v62 (F := Ideal) X0 X1 X2 W3 W5 W7 W8 W9 W10 W11 W12) (kGi x0 x1 x2 W3 W5 W7 W8 W9 W10 W11 W12) := by
  have g := rows_genIn t X0 X1 X2 x0 x1 x2 W7 W8 W9 W10 W11 W12 h0 h1 h2
  have v74 := (g.trunc (ψ := .bf16) Cert.KernelIdeal.Gen.bitsLt_bf16_f32).dot dot_S65536x20_S20x600_S65536x600_1_0_0_1_n_n
    Cert.KernelIdeal.dot_S1024x20_S20x600_S1024x600_1_0_0_1_n_n ⟨rfl, rfl, rfl, rfl, rfl, rfl⟩ ⟨rfl, rfl, rfl, rfl, rfl, rfl⟩ (val_main_v58 (F := Ideal) W3)
    (transpose Cert.KernelIdeal.S20x600 [1, 0] (truncf .bf16 W3 Cert.KernelIdeal.Gen.bitsLt_bf16_f32) Cert.KernelIdeal.Gen.transposes_S600x20_p1_0_S20x600) (fun _ _ => rfl)
  exact v74.add (IsRows.bias (B := 1024) (t := t) W5 bcast_S600_S1x600_1 bcast_S1x600_S65536x600_0_1
    Cert.KernelIdeal.Gen.shapeCasts_S600_S1x600 Cert.KernelIdeal.Gen.broadcasts_S1x600_S1024x600)

include h1 in
/-- The generator cell's state-side gates. -/
theorem rows_gh : IsRows 1024 t (val_main_v67 (F := Ideal) X1 W4 W6) (kGh x1 W4 W6) := by
  have s := h1.slice 0 200 slices_S65536x420_S65536x200_0_0 Cert.KernelIdeal.Gen.slices_S1024x420_o0_0_S1024x200
  have v80 := (s.trunc (ψ := .bf16) Cert.KernelIdeal.Gen.bitsLt_bf16_f32).dot dot_S65536x200_S200x600_S65536x600_1_0_0_1_n_n
    Cert.KernelIdeal.dot_S1024x200_S200x600_S1024x600_1_0_0_1_n_n ⟨rfl, rfl, rfl, rfl, rfl, rfl⟩ ⟨rfl, rfl, rfl, rfl, rfl, rfl⟩ (val_main_v63 (F := Ideal) W4)
    (transpose Cert.KernelIdeal.S200x600 [1, 0] (truncf .bf16 W4 Cert.KernelIdeal.Gen.bitsLt_bf16_f32) Cert.KernelIdeal.Gen.transposes_S600x200_p1_0_S200x600) (fun _ _ => rfl)
  exact v80.add (IsRows.bias (B := 1024) (t := t) W6 bcast_S600_S1x600_1 bcast_S1x600_S65536x600_0_1
    Cert.KernelIdeal.Gen.shapeCasts_S600_S1x600 Cert.KernelIdeal.Gen.broadcasts_S1x600_S1024x600)

/-- What the body stores: the new generator state, the new controller state, the mean, the standard deviation, the
    generator's input and the new factors, side by side. -/
abbrev kBody : FVec Ideal Cert.KernelIdeal.S1024x420 .f32 :=
  Cert.KernelIdeal.Gen.k0_pay1 (F := Ideal) (Cert.KernelIdeal.Gen.k0_pay2 x1) (Cert.KernelIdeal.Gen.k0_pay5 (kCon x0 x1 W7 W8 W9 W10) lo hi)
    (Cert.KernelIdeal.Gen.k0_pay7 (kCon x0 x1 W7 W8 W9 W10) lo hi W11 W12) (Cert.KernelIdeal.Gen.k0_pay8 (kCon x0 x1 W7 W8 W9 W10) lo hi W11 W12)
    (kGenIn x0 x1 x2 W7 W8 W9 W10 W11 W12) (kGh x1 W4 W6)
    (Cert.KernelIdeal.Gen.k0_pay12 (Cert.KernelIdeal.Gen.k0_pay3 x0) (kCon x0 x1 W7 W8 W9 W10) lo hi W11 W12 x2 W3 W5)
    (Cert.KernelIdeal.Gen.k0_pay13 (Cert.KernelIdeal.Gen.k0_pay3 x0) (kCon x0 x1 W7 W8 W9 W10) lo hi W11 W12 x2 W3 W5)
    (Cert.KernelIdeal.Gen.k0_pay14 (Cert.KernelIdeal.Gen.k0_pay3 x0) (kCon x0 x1 W7 W8 W9 W10) lo hi W11 W12 x2 W3 W5)
    (Cert.KernelIdeal.Gen.k0_pay15 (Cert.KernelIdeal.Gen.k0_pay2 x1) W4 W6) (Cert.KernelIdeal.Gen.k0_pay16 (Cert.KernelIdeal.Gen.k0_pay2 x1) W4 W6) W13

include h0 h1 h2 in
/-- THE BODY'S STORE is the row block of the reference's result: the generator GRU cell, the normalised linear map of its
    clipped state, and the six pieces side by side. -/
theorem rows_body : IsRows 1024 t (val_main_v104 (F := Ideal) X0 X1 X2 W3 W4 W5 W6 W7 W8 W9 W10 W11 W12 W13)
    (kBody x0 x1 x2 W3 W4 W5 W6 W7 W8 W9 W10 W11 W12 W13) := by
  have hv1 := h1.slice 0 200 slices_S65536x420_S65536x200_0_0 Cert.KernelIdeal.Gen.slices_S1024x420_o0_0_S1024x200
  have gi := rows_gi t X0 X1 X2 x0 x1 x2 W3 W5 W7 W8 W9 W10 W11 W12 h0 h1 h2
  have gh := rows_gh t X1 x1 W4 W6 h1
  have v84 := gi.slice 0 200 slices_S65536x600_S65536x200_0_0 Cert.KernelIdeal.Gen.slices_S1024x600_o0_0_S1024x200
  have v85 := gi.slice 200 200 slices_S65536x600_S65536x200_0_200 Cert.KernelIdeal.Gen.slices_S1024x600_o0_200_S1024x200
  have v86 := gi.slice 400 200 slices_S65536x600_S65536x200_0_400 Cert.KernelIdeal.Gen.slices_S1024x600_o0_400_S1024x200
  have v87 := gh.slice 0 200 slices_S65536x600_S65536x200_0_0 Cert.KernelIdeal.Gen.slices_S1024x600_o0_0_S1024x200
  have v88 := gh.slice 200 200 slices_S65536x600_S65536x200_0_200 Cert.KernelIdeal.Gen.slices_S1024x600_o0_200_S1024x200
  have v89 := gh.slice 400 200 slices_S65536x600_S65536x200_0_400 Cert.KernelIdeal.Gen.slices_S1024x600_o0_400_S1024x200
  have v91 := (v84.add v87).sigmoid bcast_S_S65536x200 bcast_S_S65536x200
  have v93 := (v85.add v88).sigmoid bcast_S_S65536x200 bcast_S_S65536x200
  have v96 := (v86.add (v91.mul v89)).tanhf
  have v101 := (((IsRows.splat (B := 1024) (t := t) .f32 0x3F800000#32 bcast_S_S65536x200).sub v93).mul v96).add (v93.mul hv1)
  have v105 := (IsRows.splat (B := 1024) (t := t) .f32 0x40A00000#32 bcast_S_S65536x200).minf
    ((IsRows.splat (B := 1024) (t := t) .f32 0xC0A00000#32 bcast_S_S65536x200).maxf v101)
  have v118 := (v105.trunc (ψ := .bf16) Cert.KernelIdeal.Gen.bitsLt_bf16_f32).dot dot_S65536x200_S200x64_S65536x64_1_0_0_1_n_n
    Cert.KernelIdeal.dot_S1024x200_S200x64_S1024x64_1_0_0_1_n_n ⟨rfl, rfl, rfl, rfl, rfl, rfl⟩ ⟨rfl, rfl, rfl, rfl, rfl, rfl⟩ (val_main_v102 (F := Ideal) W13) (kNormedT W13) (normed_eq W13)
  exact v105.concat6 (rows_conClip t X0 X1 x0 x1 W7 W8 W9 W10 h0 h1) (rows_mean t X0 X1 x0 x1 W7 W8 W9 W10 W11 W12 h0 h1)
    (rows_std t X0 X1 x0 x1 W7 W8 W9 W10 W11 W12 h0 h1) (rows_genIn t X0 X1 X2 x0 x1 x2 W7 W8 W9 W10 W11 W12 h0 h1 h2) v118 rfl
    concatenates_S65536x200_S65536x128_S65536x4_S65536x4_S65536x20_S65536x64_S65536x420_d1
    Cert.KernelIdeal.Gen.concatenates_S1024x200_S1024x128_S1024x4_S1024x4_S1024x20_S1024x64_S1024x420_d1

omit h0 h1 h2 in
/-- The same with the kernel's copies of the weight arrays as separate matrices equal to the reference's: each weight window
    stages its whole array at every grid point. -/
theorem rows_body_of_eq (h0 : IsRows 1024 t X0 x0) (h1 : IsRows 1024 t X1 x1) (h2 : IsRows 1024 t X2 x2)
    (w3 : FVec Ideal S600x20 .f32) (w4 : FVec Ideal S600x200 .f32) (w5 w6 : FVec Ideal S600 .f32)
    (w7 : FVec Ideal S384x320 .f32) (w8 : FVec Ideal S384x128 .f32) (w9 w10 : FVec Ideal S384 .f32)
    (w11 : FVec Ideal S8x128 .f32) (w12 : FVec Ideal S8 .f32) (w13 : FVec Ideal S64x200 .f32)
    (e3 : w3 = W3) (e4 : w4 = W4) (e5 : w5 = W5) (e6 : w6 = W6) (e7 : w7 = W7) (e8 : w8 = W8) (e9 : w9 = W9) (e10 : w10 = W10)
    (e11 : w11 = W11) (e12 : w12 = W12) (e13 : w13 = W13) :
    IsRows 1024 t (val_main_v104 (F := Ideal) X0 X1 X2 W3 W4 W5 W6 W7 W8 W9 W10 W11 W12 W13)
      (kBody x0 x1 x2 w3 w4 w5 w6 w7 w8 w9 w10 w11 w12 w13) := by
  subst e3 e4 e5 e6 e7 e8 e9 e10 e11 e12 e13
  exact rows_body t X0 X1 X2 x0 x1 x2 _ _ _ _ _ _ _ _ _ _ _ h0 h1 h2

end

end Cert.Stages

end
-- ==== Proof.Whole.lean ====
/-
  The kernel's result array as one function of its arguments.

  The grid has 64 points; at point `t` the windows of `x`, `h0`, `eps` and of the result hold rows
  `1024·t, …, 1024·t + 1023` of their arrays, and every weight window holds its whole array. So what point `t` writes
  back is the body's store of those row blocks, which is rows `1024·t, …` of the reference's result of the whole arrays
  (Stages); the 64 blocks tile the result array, so the array ends at the reference's result.
-/
import proofs.«117266_j3573412790665_1_alg».proof.Proof.Gen.KernelIdeal.Value
import proofs.«117266_j3573412790665_1_alg».proof.Proof.Stages

set_option maxRecDepth 16384

noncomputable section

namespace Cert.KernelIdeal.Whole

open Cert.KernelIdeal Cert.KernelIdeal.Gen Idealize.ShloMosaic Idealize.ShloMosaic.TcCoe Idealize.SL.Sem
open Idealize.ShloMosaic.ValueIdx Cert.RowBlock
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a; rfl

/-- The printed index maps, decided over the 64 grid points: the batch-tiled windows sit at block row `t`, every weight
    window at block 0. -/
theorem idx_facts : ∀ t : Fin cfg0.N, win0_0.index t (0 : Fin 2) = t.val
    ∧ win0_0.index t (1 : Fin 2) = 0
    ∧ win0_1.index t (0 : Fin 2) = t.val
    ∧ win0_1.index t (1 : Fin 2) = 0
    ∧ win0_2.index t (0 : Fin 2) = t.val
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 1) = 0
    ∧ win0_6.index t (0 : Fin 1) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 1) = 0
    ∧ win0_10.index t (0 : Fin 1) = 0
    ∧ win0_11.index t (0 : Fin 2) = 0
    ∧ win0_11.index t (1 : Fin 2) = 0
    ∧ win0_12.index t (0 : Fin 1) = 0
    ∧ win0_13.index t (0 : Fin 2) = 0
    ∧ win0_13.index t (1 : Fin 2) = 0
    ∧ win0_14.index t (0 : Fin 2) = t.val
    ∧ win0_14.index t (1 : Fin 2) = 0 :=
  (by decide +kernel : ∀ t : Fin grid0.N, _)

/-! ## The arrays and the blocks, at their literal types -/

abbrev arr0 (c : Dev nD) : FVec Ideal S65536x272 .f32 := V m c main_arg0
abbrev arr1 (c : Dev nD) : FVec Ideal S65536x420 .f32 := V m c main_arg1
abbrev arr2 (c : Dev nD) : FVec Ideal S65536x4 .f32 := V m c main_arg2
abbrev arr3 (c : Dev nD) : FVec Ideal S600x20 .f32 := V m c main_arg3
abbrev arr4 (c : Dev nD) : FVec Ideal S600x200 .f32 := V m c main_arg4
abbrev arr5 (c : Dev nD) : FVec Ideal S600 .f32 := V m c main_arg5
abbrev arr6 (c : Dev nD) : FVec Ideal S600 .f32 := V m c main_arg6
abbrev arr7 (c : Dev nD) : FVec Ideal S384x320 .f32 := V m c main_arg7
abbrev arr8 (c : Dev nD) : FVec Ideal S384x128 .f32 := V m c main_arg8
abbrev arr9 (c : Dev nD) : FVec Ideal S384 .f32 := V m c main_arg9
abbrev arr10 (c : Dev nD) : FVec Ideal S384 .f32 := V m c main_arg10
abbrev arr11 (c : Dev nD) : FVec Ideal S8x128 .f32 := V m c main_arg11
abbrev arr12 (c : Dev nD) : FVec Ideal S8 .f32 := V m c main_arg12
abbrev arr13 (c : Dev nD) : FVec Ideal S64x200 .f32 := V m c main_arg13
abbrev blk0 (c : Dev nD) (t : Fin cfg0.N) : FVec Ideal S1024x272 .f32 := iblk m c 0 t
abbrev blk1 (c : Dev nD) (t : Fin cfg0.N) : FVec Ideal S1024x420 .f32 := iblk m c 1 t
abbrev blk2 (c : Dev nD) (t : Fin cfg0.N) : FVec Ideal S1024x4 .f32 := iblk m c 2 t
abbrev blk3 (c : Dev nD) (t : Fin cfg0.N) : FVec Ideal S600x20 .f32 := iblk m c 3 t
abbrev blk4 (c : Dev nD) (t : Fin cfg0.N) : FVec Ideal S600x200 .f32 := iblk m c 4 t
abbrev blk5 (c : Dev nD) (t : Fin cfg0.N) : FVec Ideal S600 .f32 := iblk m c 5 t
abbrev blk6 (c : Dev nD) (t : Fin cfg0.N) : FVec Ideal S600 .f32 := iblk m c 6 t
abbrev blk7 (c : Dev nD) (t : Fin cfg0.N) : FVec Ideal S384x320 .f32 := iblk m c 7 t
abbrev blk8 (c : Dev nD) (t : Fin cfg0.N) : FVec Ideal S384x128 .f32 := iblk m c 8 t
abbrev blk9 (c : Dev nD) (t : Fin cfg0.N) : FVec Ideal S384 .f32 := iblk m c 9 t
abbrev blk10 (c : Dev nD) (t : Fin cfg0.N) : FVec Ideal S384 .f32 := iblk m c 10 t
abbrev blk11 (c : Dev nD) (t : Fin cfg0.N) : FVec Ideal S8x128 .f32 := iblk m c 11 t
abbrev blk12 (c : Dev nD) (t : Fin cfg0.N) : FVec Ideal S8 .f32 := iblk m c 12 t
abbrev blk13 (c : Dev nD) (t : Fin cfg0.N) : FVec Ideal S64x200 .f32 := iblk m c 13 t

/-! ## What each window's block holds -/

/-- Window 0's block at point `t` is rows `1024·t, …` of its array. -/
theorem rows0 (c : Dev nD) (t : Fin cfg0.N) : IsRows 1024 t.val (arr0 m c) (blk0 m c t) := by
  intro p j r hr
  obtain ⟨f0_0, f0_1, f1_0, f1_1, f2_0, f2_1, f3_0, f3_1, f4_0, f4_1, f5_0, f6_0, f7_0, f7_1, f8_0, f8_1, f9_0, f10_0, f11_0, f11_1, f12_0, f13_0, f13_1, f14_0, f14_1⟩ := idx_facts t
  show V m c main_arg0 (((cfg0.win 0).blk t).view.emb (ix2 p j)) = V m c main_arg0 (ix2 r j)
  refine congrArg (V m c main_arg0) (funext fun a => Fin.ext ?_)
  match a with
  | ⟨0, _⟩ => show win0_0.index t (0 : Fin 2) * 1024 + 1 * p.val = r.val; omega
  | ⟨1, _⟩ => show win0_0.index t (1 : Fin 2) * 272 + 1 * j.val = j.val; omega

/-- Window 1's block at point `t` is rows `1024·t, …` of its array. -/
theorem rows1 (c : Dev nD) (t : Fin cfg0.N) : IsRows 1024 t.val (arr1 m c) (blk1 m c t) := by
  intro p j r hr
  obtain ⟨f0_0, f0_1, f1_0, f1_1, f2_0, f2_1, f3_0, f3_1, f4_0, f4_1, f5_0, f6_0, f7_0, f7_1, f8_0, f8_1, f9_0, f10_0, f11_0, f11_1, f12_0, f13_0, f13_1, f14_0, f14_1⟩ := idx_facts t
  show V m c main_arg1 (((cfg0.win 1).blk t).view.emb (ix2 p j)) = V m c main_arg1 (ix2 r j)
  refine congrArg (V m c main_arg1) (funext fun a => Fin.ext ?_)
  match a with
  | ⟨0, _⟩ => show win0_1.index t (0 : Fin 2) * 1024 + 1 * p.val = r.val; omega
  | ⟨1, _⟩ => show win0_1.index t (1 : Fin 2) * 420 + 1 * j.val = j.val; omega

/-- Window 2's block at point `t` is rows `1024·t, …` of its array. -/
theorem rows2 (c : Dev nD) (t : Fin cfg0.N) : IsRows 1024 t.val (arr2 m c) (blk2 m c t) := by
  intro p j r hr
  obtain ⟨f0_0, f0_1, f1_0, f1_1, f2_0, f2_1, f3_0, f3_1, f4_0, f4_1, f5_0, f6_0, f7_0, f7_1, f8_0, f8_1, f9_0, f10_0, f11_0, f11_1, f12_0, f13_0, f13_1, f14_0, f14_1⟩ := idx_facts t
  show V m c main_arg2 (((cfg0.win 2).blk t).view.emb (ix2 p j)) = V m c main_arg2 (ix2 r j)
  refine congrArg (V m c main_arg2) (funext fun a => Fin.ext ?_)
  match a with
  | ⟨0, _⟩ => show win0_2.index t (0 : Fin 2) * 1024 + 1 * p.val = r.val; omega
  | ⟨1, _⟩ => show win0_2.index t (1 : Fin 2) * 4 + 1 * j.val = j.val; omega

/-- Window 3's block is its whole array at every point. -/
theorem whole3 (c : Dev nD) (t : Fin cfg0.N) : blk3 m c t = arr3 m c := by
  funext y
  obtain ⟨f0_0, f0_1, f1_0, f1_1, f2_0, f2_1, f3_0, f3_1, f4_0, f4_1, f5_0, f6_0, f7_0, f7_1, f8_0, f8_1, f9_0, f10_0, f11_0, f11_1, f12_0, f13_0, f13_1, f14_0, f14_1⟩ := idx_facts t
  show V m c main_arg3 (((cfg0.win 3).blk t).view.emb y) = V m c main_arg3 y
  refine congrArg (V m c main_arg3) (funext fun a => Fin.ext ?_)
  match a with
  | ⟨0, _⟩ => show win0_3.index t (0 : Fin 2) * 600 + 1 * (y 0).val = (y 0).val; omega
  | ⟨1, _⟩ => show win0_3.index t (1 : Fin 2) * 20 + 1 * (y 1).val = (y 1).val; omega

/-- Window 4's block is its whole array at every point. -/
theorem whole4 (c : Dev nD) (t : Fin cfg0.N) : blk4 m c t = arr4 m c := by
  funext y
  obtain ⟨f0_0, f0_1, f1_0, f1_1, f2_0, f2_1, f3_0, f3_1, f4_0, f4_1, f5_0, f6_0, f7_0, f7_1, f8_0, f8_1, f9_0, f10_0, f11_0, f11_1, f12_0, f13_0, f13_1, f14_0, f14_1⟩ := idx_facts t
  show V m c main_arg4 (((cfg0.win 4).blk t).view.emb y) = V m c main_arg4 y
  refine congrArg (V m c main_arg4) (funext fun a => Fin.ext ?_)
  match a with
  | ⟨0, _⟩ => show win0_4.index t (0 : Fin 2) * 600 + 1 * (y 0).val = (y 0).val; omega
  | ⟨1, _⟩ => show win0_4.index t (1 : Fin 2) * 200 + 1 * (y 1).val = (y 1).val; omega

/-- Window 5's block is its whole array at every point. -/
theorem whole5 (c : Dev nD) (t : Fin cfg0.N) : blk5 m c t = arr5 m c := by
  funext y
  obtain ⟨f0_0, f0_1, f1_0, f1_1, f2_0, f2_1, f3_0, f3_1, f4_0, f4_1, f5_0, f6_0, f7_0, f7_1, f8_0, f8_1, f9_0, f10_0, f11_0, f11_1, f12_0, f13_0, f13_1, f14_0, f14_1⟩ := idx_facts t
  show V m c main_arg5 (((cfg0.win 5).blk t).view.emb y) = V m c main_arg5 y
  refine congrArg (V m c main_arg5) (funext fun a => Fin.ext ?_)
  match a with
  | ⟨0, _⟩ => show win0_5.index t (0 : Fin 1) * 600 + 1 * (y 0).val = (y 0).val; omega

/-- Window 6's block is its whole array at every point. -/
theorem whole6 (c : Dev nD) (t : Fin cfg0.N) : blk6 m c t = arr6 m c := by
  funext y
  obtain ⟨f0_0, f0_1, f1_0, f1_1, f2_0, f2_1, f3_0, f3_1, f4_0, f4_1, f5_0, f6_0, f7_0, f7_1, f8_0, f8_1, f9_0, f10_0, f11_0, f11_1, f12_0, f13_0, f13_1, f14_0, f14_1⟩ := idx_facts t
  show V m c main_arg6 (((cfg0.win 6).blk t).view.emb y) = V m c main_arg6 y
  refine congrArg (V m c main_arg6) (funext fun a => Fin.ext ?_)
  match a with
  | ⟨0, _⟩ => show win0_6.index t (0 : Fin 1) * 600 + 1 * (y 0).val = (y 0).val; omega

/-- Window 7's block is its whole array at every point. -/
theorem whole7 (c : Dev nD) (t : Fin cfg0.N) : blk7 m c t = arr7 m c := by
  funext y
  obtain ⟨f0_0, f0_1, f1_0, f1_1, f2_0, f2_1, f3_0, f3_1, f4_0, f4_1, f5_0, f6_0, f7_0, f7_1, f8_0, f8_1, f9_0, f10_0, f11_0, f11_1, f12_0, f13_0, f13_1, f14_0, f14_1⟩ := idx_facts t
  show V m c main_arg7 (((cfg0.win 7).blk t).view.emb y) = V m c main_arg7 y
  refine congrArg (V m c main_arg7) (funext fun a => Fin.ext ?_)
  match a with
  | ⟨0, _⟩ => show win0_7.index t (0 : Fin 2) * 384 + 1 * (y 0).val = (y 0).val; omega
  | ⟨1, _⟩ => show win0_7.index t (1 : Fin 2) * 320 + 1 * (y 1).val = (y 1).val; omega

/-- Window 8's block is its whole array at every point. -/
theorem whole8 (c : Dev nD) (t : Fin cfg0.N) : blk8 m c t = arr8 m c := by
  funext y
  obtain ⟨f0_0, f0_1, f1_0, f1_1, f2_0, f2_1, f3_0, f3_1, f4_0, f4_1, f5_0, f6_0, f7_0, f7_1, f8_0, f8_1, f9_0, f10_0, f11_0, f11_1, f12_0, f13_0, f13_1, f14_0, f14_1⟩ := idx_facts t
  show V m c main_arg8 (((cfg0.win 8).blk t).view.emb y) = V m c main_arg8 y
  refine congrArg (V m c main_arg8) (funext fun a => Fin.ext ?_)
  match a with
  | ⟨0, _⟩ => show win0_8.index t (0 : Fin 2) * 384 + 1 * (y 0).val = (y 0).val; omega
  | ⟨1, _⟩ => show win0_8.index t (1 : Fin 2) * 128 + 1 * (y 1).val = (y 1).val; omega

/-- Window 9's block is its whole array at every point. -/
theorem whole9 (c : Dev nD) (t : Fin cfg0.N) : blk9 m c t = arr9 m c := by
  funext y
  obtain ⟨f0_0, f0_1, f1_0, f1_1, f2_0, f2_1, f3_0, f3_1, f4_0, f4_1, f5_0, f6_0, f7_0, f7_1, f8_0, f8_1, f9_0, f10_0, f11_0, f11_1, f12_0, f13_0, f13_1, f14_0, f14_1⟩ := idx_facts t
  show V m c main_arg9 (((cfg0.win 9).blk t).view.emb y) = V m c main_arg9 y
  refine congrArg (V m c main_arg9) (funext fun a => Fin.ext ?_)
  match a with
  | ⟨0, _⟩ => show win0_9.index t (0 : Fin 1) * 384 + 1 * (y 0).val = (y 0).val; omega

/-- Window 10's block is its whole array at every point. -/
theorem whole10 (c : Dev nD) (t : Fin cfg0.N) : blk10 m c t = arr10 m c := by
  funext y
  obtain ⟨f0_0, f0_1, f1_0, f1_1, f2_0, f2_1, f3_0, f3_1, f4_0, f4_1, f5_0, f6_0, f7_0, f7_1, f8_0, f8_1, f9_0, f10_0, f11_0, f11_1, f12_0, f13_0, f13_1, f14_0, f14_1⟩ := idx_facts t
  show V m c main_arg10 (((cfg0.win 10).blk t).view.emb y) = V m c main_arg10 y
  refine congrArg (V m c main_arg10) (funext fun a => Fin.ext ?_)
  match a with
  | ⟨0, _⟩ => show win0_10.index t (0 : Fin 1) * 384 + 1 * (y 0).val = (y 0).val; omega

/-- Window 11's block is its whole array at every point. -/
theorem whole11 (c : Dev nD) (t : Fin cfg0.N) : blk11 m c t = arr11 m c := by
  funext y
  obtain ⟨f0_0, f0_1, f1_0, f1_1, f2_0, f2_1, f3_0, f3_1, f4_0, f4_1, f5_0, f6_0, f7_0, f7_1, f8_0, f8_1, f9_0, f10_0, f11_0, f11_1, f12_0, f13_0, f13_1, f14_0, f14_1⟩ := idx_facts t
  show V m c main_arg11 (((cfg0.win 11).blk t).view.emb y) = V m c main_arg11 y
  refine congrArg (V m c main_arg11) (funext fun a => Fin.ext ?_)
  match a with
  | ⟨0, _⟩ => show win0_11.index t (0 : Fin 2) * 8 + 1 * (y 0).val = (y 0).val; omega
  | ⟨1, _⟩ => show win0_11.index t (1 : Fin 2) * 128 + 1 * (y 1).val = (y 1).val; omega

/-- Window 12's block is its whole array at every point. -/
theorem whole12 (c : Dev nD) (t : Fin cfg0.N) : blk12 m c t = arr12 m c := by
  funext y
  obtain ⟨f0_0, f0_1, f1_0, f1_1, f2_0, f2_1, f3_0, f3_1, f4_0, f4_1, f5_0, f6_0, f7_0, f7_1, f8_0, f8_1, f9_0, f10_0, f11_0, f11_1, f12_0, f13_0, f13_1, f14_0, f14_1⟩ := idx_facts t
  show V m c main_arg12 (((cfg0.win 12).blk t).view.emb y) = V m c main_arg12 y
  refine congrArg (V m c main_arg12) (funext fun a => Fin.ext ?_)
  match a with
  | ⟨0, _⟩ => show win0_12.index t (0 : Fin 1) * 8 + 1 * (y 0).val = (y 0).val; omega

/-- Window 13's block is its whole array at every point. -/
theorem whole13 (c : Dev nD) (t : Fin cfg0.N) : blk13 m c t = arr13 m c := by
  funext y
  obtain ⟨f0_0, f0_1, f1_0, f1_1, f2_0, f2_1, f3_0, f3_1, f4_0, f4_1, f5_0, f6_0, f7_0, f7_1, f8_0, f8_1, f9_0, f10_0, f11_0, f11_1, f12_0, f13_0, f13_1, f14_0, f14_1⟩ := idx_facts t
  show V m c main_arg13 (((cfg0.win 13).blk t).view.emb y) = V m c main_arg13 y
  refine congrArg (V m c main_arg13) (funext fun a => Fin.ext ?_)
  match a with
  | ⟨0, _⟩ => show win0_13.index t (0 : Fin 2) * 64 + 1 * (y 0).val = (y 0).val; omega
  | ⟨1, _⟩ => show win0_13.index t (1 : Fin 2) * 200 + 1 * (y 1).val = (y 1).val; omega

/-! ## The result array -/

/-- The reference's result of the kernel's argument arrays. -/
abbrev G (c : Dev nD) : FVec Ideal S65536x420 .f32 :=
  Cert.ReferenceIdeal.Read.val_main_v104 (F := Ideal) (arr0 m c) (arr1 m c) (arr2 m c) (arr3 m c) (arr4 m c) (arr5 m c) (arr6 m c)
    (arr7 m c) (arr8 m c) (arr9 m c) (arr10 m c) (arr11 m c) (arr12 m c) (arr13 m c)

/-- WHAT POINT `t` WRITES BACK is block `t` of the reference's result of the argument arrays. -/
theorem flushed_eq (c : Dev nD) (t : Fin cfg0.N) :
    (dats m 0 c).flushed 14 t = ((cfg0.win 14).blk t).view.read (Elt Ideal) (G m c) := by
  rw [Cert.KernelIdeal.Value.flushed14]
  unfold out0_14
  rw [View.canon_unit_zero hz2]
  simp only [View.ld_unit_zero (S := S1024x272) hz2, View.ld_unit_zero (S := S1024x420) hz2, View.ld_unit_zero (S := S1024x4) hz2,
    View.ld_unit_zero (S := S600x20) hz2, View.ld_unit_zero (S := S600x200) hz2, View.ld_unit_zero (S := S600) hz1,
    View.ld_unit_zero (S := S384x320) hz2, View.ld_unit_zero (S := S384x128) hz2, View.ld_unit_zero (S := S384) hz1,
    View.ld_unit_zero (S := S8x128) hz2, View.ld_unit_zero (S := S8) hz1, View.ld_unit_zero (S := S64x200) hz2]
  obtain ⟨f0_0, f0_1, f1_0, f1_1, f2_0, f2_1, f3_0, f3_1, f4_0, f4_1, f5_0, f6_0, f7_0, f7_1, f8_0, f8_1, f9_0, f10_0, f11_0, f11_1, f12_0, f13_0, f13_1, f14_0, f14_1⟩ := idx_facts t
  funext y
  have hp : (y 0).val < 1024 := (y 0).isLt
  have ht : t.val < 64 := t.isLt
  have hr : 1024 * t.val + (y 0).val < 65536 := by omega
  have key := Cert.Stages.rows_body_of_eq t.val (arr0 m c) (arr1 m c) (arr2 m c) (blk0 m c t) (blk1 m c t) (blk2 m c t)
    (arr3 m c) (arr4 m c) (arr5 m c) (arr6 m c) (arr7 m c) (arr8 m c) (arr9 m c) (arr10 m c) (arr11 m c) (arr12 m c) (arr13 m c)
    (rows0 m c t) (rows1 m c t) (rows2 m c t)
    (blk3 m c t) (blk4 m c t) (blk5 m c t) (blk6 m c t) (blk7 m c t) (blk8 m c t) (blk9 m c t) (blk10 m c t) (blk11 m c t)
    (blk12 m c t) (blk13 m c t)
    (whole3 m c t) (whole4 m c t) (whole5 m c t) (whole6 m c t) (whole7 m c t) (whole8 m c t) (whole9 m c t) (whole10 m c t)
    (whole11 m c t) (whole12 m c t) (whole13 m c t)
    ⟨(y 0).val, hp⟩ ⟨(y 1).val, (y 1).isLt⟩ ⟨1024 * t.val + (y 0).val, hr⟩ rfl
  have ey : y = ix2 ⟨(y 0).val, hp⟩ ⟨(y 1).val, (y 1).isLt⟩ := eq_ix2 y
  have ee : ((cfg0.win 14).blk t).view.emb y = ix2 ⟨1024 * t.val + (y 0).val, hr⟩ ⟨(y 1).val, (y 1).isLt⟩ := by
    funext a; apply Fin.ext
    match a with
    | ⟨0, _⟩ => show win0_14.index t (0 : Fin 2) * 1024 + 1 * (y 0).val = 1024 * t.val + (y 0).val; omega
    | ⟨1, _⟩ => show win0_14.index t (1 : Fin 2) * 420 + 1 * (y 1).val = (y 1).val; omega
  show Cert.Stages.kBody (blk0 m c t) (blk1 m c t) (blk2 m c t) (blk3 m c t) (blk4 m c t) (blk5 m c t) (blk6 m c t) (blk7 m c t)
      (blk8 m c t) (blk9 m c t) (blk10 m c t) (blk11 m c t) (blk12 m c t) (blk13 m c t) y
    = G m c (((cfg0.win 14).blk t).view.emb y)
  rw [ee]
  exact (congrArg _ ey).trans key

/-- An index of the array is in point `t`'s block iff each coordinate is in the block's range on its axis. -/
theorem mem_blk (t : Fin cfg0.N) (i : S65536x420.Idx) :
    i ∈ ((cfg0.win 14).blk t).view.set ↔ ∀ a : Fin 2, win0_14.index t a * S1024x420.size a ≤ (i a).val
      ∧ (i a).val < win0_14.index t a * S1024x420.size a + S1024x420.size a := by
  show i ∈ ((View.whole main_v0).slice (win0_14.rect t)).set ↔ _
  rw [View.set_slice_whole, Rect.mem_set_unit]
  exact Iff.rfl

/-- Every row lies in the block of the point `row / 1024`: the 64 blocks tile the array. -/
theorem cover (i : S65536x420.Idx) : ∃ t : Fin cfg0.N, (cfg0.win 14).flush t = true ∧ i ∈ ((cfg0.win 14).blk t).view.set := by
  have hi0 : (i 0).val < 65536 := (i 0).isLt
  have hi1 : (i 1).val < 420 := (i 1).isLt
  refine ⟨⟨(i 0).val / 1024, by show _ < 64; omega⟩, flush0_14 _, ?_⟩
  obtain ⟨f0_0, f0_1, f1_0, f1_1, f2_0, f2_1, f3_0, f3_1, f4_0, f4_1, f5_0, f6_0, f7_0, f7_1, f8_0, f8_1, f9_0, f10_0, f11_0, f11_1, f12_0, f13_0, f13_1, f14_0, f14_1⟩ := idx_facts ⟨(i 0).val / 1024, by show _ < 64; omega⟩
  rw [mem_blk]
  intro a
  match a with
  | ⟨0, _⟩ =>
    show win0_14.index _ (0 : Fin 2) * 1024 ≤ (i 0).val ∧ (i 0).val < win0_14.index _ (0 : Fin 2) * 1024 + 1024
    rw [f14_0]; show (i 0).val / 1024 * 1024 ≤ (i 0).val ∧ (i 0).val < (i 0).val / 1024 * 1024 + 1024; omega
  | ⟨1, _⟩ =>
    show win0_14.index _ (1 : Fin 2) * 420 ≤ (i 1).val ∧ (i 1).val < win0_14.index _ (1 : Fin 2) * 420 + 420
    rw [f14_1]; omega

/-- THE ARRAY after the run is the reference's result of the argument arrays. -/
theorem final (c : Dev nD) : (dats m 0 c).arrAt 14 cfg0.N = G m c :=
  (dats m 0 c).arrAt_eq_of_cover 14 (G m c) (fun t _ => flushed_eq m c t) (cover)

/-- The kernel's run re-posted: the result array at the reference's result of the arguments, the arguments unchanged. -/
theorem run : θ_run defs (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13) :=
  (θ_run defs _ _).mono (fun r h c => ⟨(h c).1.trans (final m c), (h c).2⟩) (Cert.KernelIdeal.Value.run_blocks m ρ)

end Cert.KernelIdeal.Whole

end
-- ==== Proof.lean ====
/-
  The decoder cell kernel against its reference: equivalence over the extended reals.

  The kernel tiles the batch of 65536 rows into 64 blocks of 1024 and computes, for each block, the reference's row-wise
  function of that block of `x`, `h0`, `eps` and of the whole weight arrays: a controller GRU cell, a reparameterised
  sample, a generator GRU cell and a linear map with unit-length rows, the six results side by side. Every step treats rows
  independently (a product with a weight matrix on the right, a bias row, column slices, pointwise operations), so each
  block of the reference's result is the kernel body's store at that block (Stages, over LibRowBlock); the blocks tile the
  result array (Whole). The two programs spell the same operations in the same order, so no law that needs finite values
  is used and the precondition is never opened. At the exact instance the kernel's changes of float format are the identity,
  its logistic function is the reference's `1 / (1 + e⁻ˣ)`, its products into a zero accumulator and the reference's are the
  same sums, and its lane sum and the reference's sum from zero are the same sum.

  The frames of the two kernel programs are the generated ones; the reference's frame is its generated run with the result
  dropped; the idealization rewrote nothing, so `preserves` is trivial.
-/
import proofs.«117266_j3573412790665_1_alg».proof.Defs
import proofs.«117266_j3573412790665_1_alg».proof.Proof.Gen.Kernel
import proofs.«117266_j3573412790665_1_alg».proof.Proof.Gen.Kernel.Skeleton
import proofs.«117266_j3573412790665_1_alg».proof.Proof.Gen.Kernel.Launch
import proofs.«117266_j3573412790665_1_alg».proof.Proof.Gen.Kernel.Points
import proofs.«117266_j3573412790665_1_alg».proof.Proof.Gen.Kernel.Frame
import proofs.«117266_j3573412790665_1_alg».proof.Proof.Gen.KernelIdeal
import proofs.«117266_j3573412790665_1_alg».proof.Proof.Gen.KernelIdeal.Skeleton
import proofs.«117266_j3573412790665_1_alg».proof.Proof.Gen.KernelIdeal.Launch
import proofs.«117266_j3573412790665_1_alg».proof.Proof.Gen.KernelIdeal.Points
import proofs.«117266_j3573412790665_1_alg».proof.Proof.Gen.KernelIdeal.Frame
import proofs.«117266_j3573412790665_1_alg».proof.Proof.Gen.ReferenceIdeal
import proofs.«117266_j3573412790665_1_alg».proof.Proof.Gen.Pre_finite_inputs
import proofs.«117266_j3573412790665_1_alg».proof.Proof.Gen.KernelIdeal.Value
import proofs.«117266_j3573412790665_1_alg».proof.Proof.Gen.ReferenceIdeal.Run
import proofs.«117266_j3573412790665_1_alg».proof.Proof.Gen.ReferenceIdeal.Read
import proofs.«117266_j3573412790665_1_alg».proof.Proof.Whole
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments, the kernel's result array ends at the reference's result of the kernel's
    arguments (Whole), and the reference's at its result of its own arguments, which are the same arrays. -/
theorem algebraic : Cert.algebraic_KernelIdeal_ReferenceIdeal := by
  intro m ρ m' ρ' _ hagree
  refine ⟨fun c => Cert.KernelIdeal.Whole.G m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10, e11, e12, e13⟩ := hagree c
  rw [Cert.ReferenceIdeal.Read.val_main_v104_eq, e0, e1, e2, e3, e4, e5, e6, e7, e8, e9, e10, e11, e12, e13]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
